-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v27)) (v2 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x1 : Shape := ⟨2, ![16384, 1]⟩
abbrev S512 : Shape := ⟨1, ![512]⟩
abbrev S16x512 : Shape := ⟨2, ![16, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512 : S_.BroadcastsInDim S512 (![] : Fin 0 → Fin S512.rank)
  reducesTo_S512_S_d0 : S512.ReducesTo [0] S_
  bcast_S_S16x512 : S_.BroadcastsInDim S16x512 (![] : Fin 0 → Fin S16x512.rank)
  reducesTo_S16x512_S_d0_1 : S16x512.ReducesTo [0, 1] S_

variable [Facts]

def fn_part1 {F : FTy → Type} [FloatOps F] (main_arg5 : FVec F S16x512 .f32) (main_arg6 : FVec F S16x512 .f32) (main_arg7 : FVec F S16x512 .f32) (main_v13 : IVec S_ 1) (main_v16 : IVec S16x512 1) : IVec S_ 1 :=
  let main_c_5 : IVec S_ 1 := constantI S_ 1 1#1
  let main_v17 : IVec S_ 1 := (fun x v => Host.reduce IntOp.andi x v reducesTo_S16x512_S_d0_1 h_S_) main_v16 main_c_5
  let main_v18 : IVec S_ 1 := andi main_v13 main_v17
  let main_v19 : FVec F S16x512 .f32 := Host.absf main_arg5
  let main_cst_6 : FVec F S_ .f32 := constant S_ .f32 0x7F800000#32
  let main_v20 : FVec F S16x512 .f32 := broadcastInDim S16x512 ![] bcast_S_S16x512 main_cst_6
  let main_v21 : IVec S16x512 1 := cmpf .olt main_v19 main_v20
  let main_c_7 : IVec S_ 1 := constantI S_ 1 1#1
  let main_v22 : IVec S_ 1 := (fun x v => Host.reduce IntOp.andi x v reducesTo_S16x512_S_d0_1 h_S_) main_v21 main_c_7
  let main_v23 : IVec S_ 1 := andi main_v18 main_v22
  let main_v24 : FVec F S16x512 .f32 := Host.absf main_arg6
  let main_cst_8 : FVec F S_ .f32 := constant S_ .f32 0x7F800000#32
  let main_v25 : FVec F S16x512 .f32 := broadcastInDim S16x512 ![] bcast_S_S16x512 main_cst_8
  let main_v26 : IVec S16x512 1 := cmpf .olt main_v24 main_v25
  let main_c_9 : IVec S_ 1 := constantI S_ 1 1#1
  let main_v27 : IVec S_ 1 := (fun x v => Host.reduce IntOp.andi x v reducesTo_S16x512_S_d0_1 h_S_) main_v26 main_c_9
  let main_v28 : IVec S_ 1 := andi main_v23 main_v27
  let main_v29 : FVec F S16x512 .f32 := Host.absf main_arg7
  let main_cst_10 : FVec F S_ .f32 := constant S_ .f32 0x7F800000#32
  let main_v30 : FVec F S16x512 .f32 := broadcastInDim S16x512 ![] bcast_S_S16x512 main_cst_10
  let main_v31 : IVec S16x512 1 := cmpf .olt main_v29 main_v30
  let main_c_11 : IVec S_ 1 := constantI S_ 1 1#1
  let main_v32 : IVec S_ 1 := (fun x v => Host.reduce IntOp.andi x v reducesTo_S16x512_S_d0_1 h_S_) main_v31 main_c_11
  let main_v33 : IVec S_ 1 := andi main_v28 main_v32
  main_v33

def fn {F : FTy → Type} [FloatOps F] (main_arg0 : FVec F S16384x512 .f32) (main_arg1 : IVec S16384x1 32) (main_arg2 : FVec F S512 .f32) (main_arg3 : FVec F S512 .f32) (main_arg4 : FVec F S16x512 .f32) (main_arg5 : FVec F S16x512 .f32) (main_arg6 : FVec F S16x512 .f32) (main_arg7 : FVec F S16x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S512 .f32 := Host.absf main_arg2
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S16x512 .f32 := Host.absf main_arg4
  let main_cst_4 : FVec F S_ .f32 := constant S_ .f32 0x7F800000#32
  let main_v15 : FVec F S16x512 .f32 := broadcastInDim S16x512 ![] bcast_S_S16x512 main_cst_4
  let main_v16 : IVec S16x512 1 := cmpf .olt main_v14 main_v15
  fn_part1 (F := F) main_arg5 main_arg6 main_arg7 main_v13 main_v16
-- ==== Kernel.lean ====
abbrev S16384x512 : Shape := ⟨2, ![16384, 512]⟩
abbrev S16384x1 : Shape := ⟨2, ![16384, 1]⟩
abbrev S512 : Shape := ⟨1, ![512]⟩
abbrev S16x512 : Shape := ⟨2, ![16, 512]⟩
abbrev S16384 : Shape := ⟨1, ![16384]⟩
abbrev S16 : Shape := ⟨1, ![16]⟩
abbrev S1x16 : Shape := ⟨2, ![1, 16]⟩
abbrev S16384x16 : Shape := ⟨2, ![16384, 16]⟩
abbrev S1x512 : Shape := ⟨2, ![1, 512]⟩
abbrev S2048x512 : Shape := ⟨2, ![2048, 512]⟩
abbrev S2048x16 : Shape := ⟨2, ![2048, 16]⟩
abbrev S_ : Shape := ⟨0, ![]⟩
abbrev S16x16384x512 : Shape := ⟨3, ![16, 16384, 512]⟩
abbrev S1x2048x512 : Shape := ⟨3, ![1, 2048, 512]⟩

abbrev nBuf : Space → Nat
  | .hbm => 65
  | .vmem => 16
  | .smem => 0
  | _ => 0

abbrev bufTy : (tb : Table) → Fin (tcTables nBuf tb) → BufTy
  | .hbm, ⟨0, _⟩ => ⟨S16384x512, .f32⟩
  | .hbm, ⟨1, _⟩ => ⟨S16384x1, .i32⟩
  | .hbm, ⟨2, _⟩ => ⟨S512, .f32⟩
  | .hbm, ⟨3, _⟩ => ⟨S512, .f32⟩
  | .hbm, ⟨4, _⟩ => ⟨S16x512, .f32⟩
  | .hbm, ⟨5, _⟩ => ⟨S16x512, .f32⟩
  | .hbm, ⟨6, _⟩ => ⟨S16x512, .f32⟩
  | .hbm, ⟨7, _⟩ => ⟨S16x512, .f32⟩
  | .hbm, ⟨8, _⟩ => ⟨S16384, .i32⟩
  | .hbm, ⟨9, _⟩ => ⟨S16, .i32⟩
  | .hbm, ⟨10, _⟩ => ⟨S16384x1, .i32⟩
  | .hbm, ⟨11, _⟩ => ⟨S1x16, .i32⟩
  | .hbm, ⟨12, _⟩ => ⟨S16384x16, .i32⟩
  | .hbm, ⟨13, _⟩ => ⟨S16384x16, .i32⟩
  | .hbm, ⟨14, _⟩ => ⟨S16384x16, .i1⟩
  | .hbm, ⟨15, _⟩ => ⟨S16384x16, .f32⟩
  | .hbm, ⟨16, _⟩ => ⟨S1x512, .f32⟩
  | .hbm, ⟨17, _⟩ => ⟨S1x512, .f32⟩
  | .hbm, ⟨18, _⟩ => ⟨S16x512, .f32⟩
  | .hbm, ⟨19, _⟩ => ⟨S16x512, .f32⟩
  | .hbm, ⟨20, _⟩ => ⟨S512, .f32⟩
  | .hbm, ⟨21, _⟩ => ⟨S_, .f32⟩
  | .hbm, ⟨22, _⟩ => ⟨S512, .f32⟩
  | .hbm, ⟨23, _⟩ => ⟨S512, .f32⟩
  | .hbm, ⟨24, _⟩ => ⟨S512, .f32⟩
  | .hbm, ⟨25, _⟩ => ⟨S_, .f32⟩
  | .hbm, ⟨26, _⟩ => ⟨S512, .f32⟩
  | .hbm, ⟨27, _⟩ => ⟨S512, .f32⟩
  | .hbm, ⟨28, _⟩ => ⟨S512, .f32⟩
  | .hbm, ⟨29, _⟩ => ⟨S512, .f32⟩
  | .hbm, ⟨30, _⟩ => ⟨S_, .f32⟩
  | .hbm, ⟨31, _⟩ => ⟨S16x512, .f32⟩
  | .hbm, ⟨32, _⟩ => ⟨S16x512, .f32⟩
  | .hbm, ⟨33, _⟩ => ⟨S_, .f32⟩
  | .hbm, ⟨34, _⟩ => ⟨S16x512, .f32⟩
  | .hbm, ⟨35, _⟩ => ⟨S16x512, .f32⟩
  | .hbm, ⟨36, _⟩ => ⟨S16x512, .f32⟩
  | .hbm, ⟨37, _⟩ => ⟨S16x512, .f32⟩
  | .hbm, ⟨38, _⟩ => ⟨S_, .f32⟩
  | .hbm, ⟨39, _⟩ => ⟨S16x512, .f32⟩
  | .hbm, ⟨40, _⟩ => ⟨S16x512, .f32⟩
  | .hbm, ⟨41, _⟩ => ⟨S_, .f32⟩
  | .hbm, ⟨42, _⟩ => ⟨S16x512, .f32⟩
  | .hbm, ⟨43, _⟩ => ⟨S16x512, .f32⟩
  | .hbm, ⟨44, _⟩ => ⟨S16x512, .f32⟩
  | .hbm, ⟨45, _⟩ => ⟨S_, .f32⟩
  | .hbm, ⟨46, _⟩ => ⟨S16x512, .f32⟩
  | .hbm, ⟨47, _⟩ => ⟨S16x512, .f32⟩
  | .hbm, ⟨48, _⟩ => ⟨S_, .f32⟩
  | .hbm, ⟨49, _⟩ => ⟨S16x512, .f32⟩
  | .hbm, ⟨50, _⟩ => ⟨S16x512, .f32⟩
  | .hbm, ⟨51, _⟩ => ⟨S16x512, .f32⟩
  | .hbm, ⟨52, _⟩ => ⟨S_, .f32⟩
  | .hbm, ⟨53, _⟩ => ⟨S512, .f32⟩
  | .hbm, ⟨54, _⟩ => ⟨S512, .f32⟩
  | .hbm, ⟨55, _⟩ => ⟨S512, .f32⟩
  | .hbm, ⟨56, _⟩ => ⟨S1x512, .f32⟩
  | .hbm, ⟨57, _⟩ => ⟨S16x512, .f32⟩
  | .hbm, ⟨58, _⟩ => ⟨S16x512, .f32⟩
  | .hbm, ⟨59, _⟩ => ⟨S1x512, .f32⟩
  | .hbm, ⟨60, _⟩ => ⟨S16x512, .f32⟩
  | .hbm, ⟨61, _⟩ => ⟨S16x512, .f32⟩
  | .hbm, ⟨62, _⟩ => ⟨S1x512, .f32⟩
  | .hbm, ⟨63, _⟩ => ⟨S1x512, .f32⟩
  | .hbm, ⟨64, _⟩ => ⟨S16x16384x512, .f32⟩
  | .local _ .vmem, ⟨0, _⟩ => ⟨S2048x512, .f32⟩
  | .local _ .vmem, ⟨1, _⟩ => ⟨S2048x512, .f32⟩
  | .local _ .vmem, ⟨2, _⟩ => ⟨S2048x16, .f32⟩
  | .local _ .vmem, ⟨3, _⟩ => ⟨S2048x16, .f32⟩
  | .local _ .vmem, ⟨4, _⟩ => ⟨S1x512, .f32⟩
  | .local _ .vmem, ⟨5, _⟩ => ⟨S1x512, .f32⟩
  | .local _ .vmem, ⟨6, _⟩ => ⟨S16x512, .f32⟩
  | .local _ .vmem, ⟨7, _⟩ => ⟨S16x512, .f32⟩
  | .local _ .vmem, ⟨8, _⟩ => ⟨S2048x512, .f32⟩
  | .local _ .vmem, ⟨9, _⟩ => ⟨S2048x512, .f32⟩
  | .local _ .vmem, ⟨10, _⟩ => ⟨S1x512, .f32⟩
  | .local _ .vmem, ⟨11, _⟩ => ⟨S1x512, .f32⟩
  | .local _ .vmem, ⟨12, _⟩ => ⟨S16x512, .f32⟩
  | .local _ .vmem, ⟨13, _⟩ => ⟨S16x512, .f32⟩
  | .local _ .vmem, ⟨14, _⟩ => ⟨S1x2048x512, .f32⟩
  | .local _ .vmem, ⟨15, _⟩ => ⟨S1x2048x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![8, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S16x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S16x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x2048x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S16384x1_S16384 : S16384x1.ShapeCasts S16384
  bcast_S16384_S16384x1_0 : S16384.BroadcastsInDim S16384x1 (![0] : Fin 1 → Fin S16384x1.rank)
  bcast_S16_S1x16_1 : S16.BroadcastsInDim S1x16 (![1] : Fin 1 → Fin S1x16.rank)
  bcast_S16384x1_S16384x16_0_1 : S16384x1.BroadcastsInDim S16384x16 (![0, 1] : Fin 2 → Fin S16384x16.rank)
  bcast_S1x16_S16384x16_0_1 : S1x16.BroadcastsInDim S16384x16 (![0, 1] : Fin 2 → Fin S16384x16.rank)
  inb_S1x512_S1x512_0_0 : ∀ a, (![0, 0] : Fin 2 → Nat) a + S1x512.size a ≤ S1x512.size a
  h_S1x512 : 0 < S1x512.numel
  inb_S16x512_S16x512_0_0 : ∀ a, (![0, 0] : Fin 2 → Nat) a + S16x512.size a ≤ S16x512.size a
  h_S16x512 : 0 < S16x512.numel
  inb_S2048x512_S2048x512_0_0 : ∀ a, (![0, 0] : Fin 2 → Nat) a + S2048x512.size a ≤ S2048x512.size a
  h_S2048x512 : 0 < S2048x512.numel
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  shapeCasts_S1x512_S1x512 : S1x512.ShapeCasts S1x512
  reduces_S2048x512_S512 : S2048x512.Reduces [0] S512
  shapeCasts_S512_S1x512 : S512.ShapeCasts S1x512
  shapeCasts_S16x512_S16x512 : S16x512.ShapeCasts S16x512
  shapeCasts_S1x512_S512 : S1x512.ShapeCasts S512
  bcast_S_S512 : S_.BroadcastsInDim S512 (![] : Fin 0 → Fin S512.rank)
  bcast_S_S16x512 : S_.BroadcastsInDim S16x512 (![] : Fin 0 → Fin S16x512.rank)
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  iota_S16x512_d0_w32 : S16x512.Iotas .tc 32 [0]
  natLt_1_32 : 1 < 32
  reduces_S16x512_S512 : S16x512.Reduces [0] S512
  broadcasts_S1x512_S2048x512 : S1x512.Broadcasts S2048x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S2048x512_S1x2048x512 : S2048x512.ShapeCasts S1x2048x512
  dot_S2048x16_S2048x512_S16x512_0_0_1_1_n_n_wf : DotDims.WF S2048x16 S2048x512 S16x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x16.size a ≤ S16384x16.size a
  hwx0_1 : ∀ i : grid0.Coords, EltTy.bits .f32 = 32 ∨ (Rect.block (s := S16384x16) S2048x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x512.size a ≤ S16x512.size a
  hwx0_4 : ∀ i : grid0.Coords, EltTy.bits .f32 = 32 ∨ (Rect.block (s := S16x512) S16x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x512.size a ≤ S16x512.size a
  hwx0_5 : ∀ i : grid0.Coords, EltTy.bits .f32 = 32 ∨ (Rect.block (s := S16x512) S16x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S16384x512.size a
  hwx1_0 : ∀ i : grid1.Coords, EltTy.bits .f32 = 32 ∨ (Rect.block (s := S16384x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x512.size a ≤ S16x512.size a
  hwx1_3 : ∀ i : grid1.Coords, EltTy.bits .f32 = 32 ∨ (Rect.block (s := S16x512) S16x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x512.size a ≤ S16x512.size a
  hwx1_4 : ∀ i : grid1.Coords, EltTy.bits .f32 = 32 ∨ (Rect.block (s := S16x512) S16x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x2048x512.size a ≤ S16x16384x512.size a
  hwx1_5 : ∀ i : grid1.Coords, EltTy.bits .f32 = 32 ∨ (Rect.block (s := S16x16384x512) S1x2048x512.size (cc1_transform_5 i) (hinb1_5 i)).WholeWords (EltTy.packing .f32)

variable [Facts₀]

def dot_S2048x16_S2048x512_S16x512_0_0_1_1_n_n : DotDims S2048x16 S2048x512 S16x512 where
  lhsContracting := [0]
  rhsContracting := [0]
  lhsNonContracting := [1]
  rhsNonContracting := [1]
  lhsBatch := []
  rhsBatch := []
  wf := dot_S2048x16_S2048x512_S16x512_0_0_1_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2048x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8_0) S1x512.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8_1) S1x512.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8_2) S16x512.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8_3) S16x512.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S16x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S16x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x2048x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16384x512 : Shape := ⟨2, ![16384, 512]⟩
abbrev S16384x1 : Shape := ⟨2, ![16384, 1]⟩
abbrev S512 : Shape := ⟨1, ![512]⟩
abbrev S16x512 : Shape := ⟨2, ![16, 512]⟩
abbrev S_ : Shape := ⟨0, ![]⟩
abbrev S1x512 : Shape := ⟨2, ![1, 512]⟩
abbrev S16 : Shape := ⟨1, ![16]⟩
abbrev S16384 : Shape := ⟨1, ![16384]⟩
abbrev S1x16384 : Shape := ⟨2, ![1, 16384]⟩
abbrev S16x1 : Shape := ⟨2, ![16, 1]⟩
abbrev S16x16384 : Shape := ⟨2, ![16, 16384]⟩
abbrev S1x16384x512 : Shape := ⟨3, ![1, 16384, 512]⟩
abbrev S16x1x512 : Shape := ⟨3, ![16, 1, 512]⟩
abbrev S16x16384x512 : Shape := ⟨3, ![16, 16384, 512]⟩

abbrev nBuf : Space → Nat
  | .hbm => 79
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1, .i32⟩
  | .hbm, ⟨2, _⟩ => ⟨S512, .f32⟩
  | .hbm, ⟨3, _⟩ => ⟨S512, .f32⟩
  | .hbm, ⟨4, _⟩ => ⟨S16x512, .f32⟩
  | .hbm, ⟨5, _⟩ => ⟨S16x512, .f32⟩
  | .hbm, ⟨6, _⟩ => ⟨S16x512, .f32⟩
  | .hbm, ⟨7, _⟩ => ⟨S16x512, .f32⟩
  | .hbm, ⟨8, _⟩ => ⟨S_, .f32⟩
  | .hbm, ⟨9, _⟩ => ⟨S512, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S1x512, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S_, .f32⟩
  | .hbm, ⟨18, _⟩ => ⟨S512, .f32⟩
  | .hbm, ⟨19, _⟩ => ⟨S_, .f32⟩
  | .hbm, ⟨20, _⟩ => ⟨S512, .f32⟩
  | .hbm, ⟨21, _⟩ => ⟨S512, .f32⟩
  | .hbm, ⟨22, _⟩ => ⟨S16, .i32⟩
  | .hbm, ⟨23, _⟩ => ⟨S16384, .i32⟩
  | .hbm, ⟨24, _⟩ => ⟨S1x16384, .i32⟩
  | .hbm, ⟨25, _⟩ => ⟨S16x1, .i32⟩
  | .hbm, ⟨26, _⟩ => ⟨S16x16384, .i32⟩
  | .hbm, ⟨27, _⟩ => ⟨S16x16384, .i32⟩
  | .hbm, ⟨28, _⟩ => ⟨S16x16384, .i1⟩
  | .hbm, ⟨29, _⟩ => ⟨S16x16384, .f32⟩
  | .hbm, ⟨30, _⟩ => ⟨S16x512, .f32⟩
  | .hbm, ⟨31, _⟩ => ⟨S_, .f32⟩
  | .hbm, ⟨32, _⟩ => ⟨S16x512, .f32⟩
  | .hbm, ⟨33, _⟩ => ⟨S16x512, .f32⟩
  | .hbm, ⟨34, _⟩ => ⟨S16384x512, .f32⟩
  | .hbm, ⟨35, _⟩ => ⟨S16x512, .f32⟩
  | .hbm, ⟨36, _⟩ => ⟨S_, .f32⟩
  | .hbm, ⟨37, _⟩ => ⟨S16x512, .f32⟩
  | .hbm, ⟨38, _⟩ => ⟨S16x512, .f32⟩
  | .hbm, ⟨39, _⟩ => ⟨S16x512, .f32⟩
  | .hbm, ⟨40, _⟩ => ⟨S16x512, .f32⟩
  | .hbm, ⟨41, _⟩ => ⟨S_, .f32⟩
  | .hbm, ⟨42, _⟩ => ⟨S16x512, .f32⟩
  | .hbm, ⟨43, _⟩ => ⟨S16x512, .f32⟩
  | .hbm, ⟨44, _⟩ => ⟨S_, .f32⟩
  | .hbm, ⟨45, _⟩ => ⟨S16x512, .f32⟩
  | .hbm, ⟨46, _⟩ => ⟨S16x512, .f32⟩
  | .hbm, ⟨47, _⟩ => ⟨S16x512, .f32⟩
  | .hbm, ⟨48, _⟩ => ⟨S_, .f32⟩
  | .hbm, ⟨49, _⟩ => ⟨S16x512, .f32⟩
  | .hbm, ⟨50, _⟩ => ⟨S16x512, .f32⟩
  | .hbm, ⟨51, _⟩ => ⟨S_, .f32⟩
  | .hbm, ⟨52, _⟩ => ⟨S16x512, .f32⟩
  | .hbm, ⟨53, _⟩ => ⟨S16x512, .f32⟩
  | .hbm, ⟨54, _⟩ => ⟨S16x512, .f32⟩
  | .hbm, ⟨55, _⟩ => ⟨S1x512, .f32⟩
  | .hbm, ⟨56, _⟩ => ⟨S16384x512, .f32⟩
  | .hbm, ⟨57, _⟩ => ⟨S16384x512, .f32⟩
  | .hbm, ⟨58, _⟩ => ⟨S_, .f32⟩
  | .hbm, ⟨59, _⟩ => ⟨S512, .f32⟩
  | .hbm, ⟨60, _⟩ => ⟨S512, .f32⟩
  | .hbm, ⟨61, _⟩ => ⟨S512, .f32⟩
  | .hbm, ⟨62, _⟩ => ⟨S1x512, .f32⟩
  | .hbm, ⟨63, _⟩ => ⟨S16384x512, .f32⟩
  | .hbm, ⟨64, _⟩ => ⟨S16384x512, .f32⟩
  | .hbm, ⟨65, _⟩ => ⟨S1x512, .f32⟩
  | .hbm, ⟨66, _⟩ => ⟨S16x512, .f32⟩
  | .hbm, ⟨67, _⟩ => ⟨S16x512, .f32⟩
  | .hbm, ⟨68, _⟩ => ⟨S1x512, .f32⟩
  | .hbm, ⟨69, _⟩ => ⟨S16x512, .f32⟩
  | .hbm, ⟨70, _⟩ => ⟨S16x512, .f32⟩
  | .hbm, ⟨71, _⟩ => ⟨S1x16384x512, .f32⟩
  | .hbm, ⟨72, _⟩ => ⟨S16x1x512, .f32⟩
  | .hbm, ⟨73, _⟩ => ⟨S16x16384x512, .f32⟩
  | .hbm, ⟨74, _⟩ => ⟨S16x16384x512, .f32⟩
  | .hbm, ⟨75, _⟩ => ⟨S16x16384x512, .f32⟩
  | .hbm, ⟨76, _⟩ => ⟨S16x1x512, .f32⟩
  | .hbm, ⟨77, _⟩ => ⟨S16x16384x512, .f32⟩
  | .hbm, ⟨78, _⟩ => ⟨S16x16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]

class Facts₀ : Prop where
  reducesTo_S16384x512_S512_d0 : S16384x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  shapeCasts_S16384x1_S16384 : S16384x1.ShapeCasts S16384
  bcast_S16384_S1x16384_1 : S16384.BroadcastsInDim S1x16384 (![1] : Fin 1 → Fin S1x16384.rank)
  bcast_S16_S16x1_0 : S16.BroadcastsInDim S16x1 (![0] : Fin 1 → Fin S16x1.rank)
  bcast_S1x16384_S16x16384_0_1 : S1x16384.BroadcastsInDim S16x16384 (![0, 1] : Fin 2 → Fin S16x16384.rank)
  bcast_S16x1_S16x16384_0_1 : S16x1.BroadcastsInDim S16x16384 (![0, 1] : Fin 2 → Fin S16x16384.rank)
  bcast_S_S16x512 : S_.BroadcastsInDim S16x512 (![] : Fin 0 → Fin S16x512.rank)
  bcast_S1x512_S16x512_0_1 : S1x512.BroadcastsInDim S16x512 (![0, 1] : Fin 2 → Fin S16x512.rank)
  bcast_S16384x512_S1x16384x512_1_2 : S16384x512.BroadcastsInDim S1x16384x512 (![1, 2] : Fin 2 → Fin S1x16384x512.rank)
  bcast_S16x512_S16x1x512_0_2 : S16x512.BroadcastsInDim S16x1x512 (![0, 2] : Fin 2 → Fin S16x1x512.rank)
  bcast_S1x16384x512_S16x16384x512_0_1_2 : S1x16384x512.BroadcastsInDim S16x16384x512 (![0, 1, 2] : Fin 3 → Fin S16x16384x512.rank)
  bcast_S16x1x512_S16x16384x512_0_1_2 : S16x1x512.BroadcastsInDim S16x16384x512 (![0, 1, 2] : Fin 3 → Fin S16x16384x512.rank)
  dot_S16x16384_S16384x512_S16x512_1_0_0_1_n_n_wf : DotDims.WF S16x16384 S16384x512 S16x512 [1] [0] [0] [1] [] []

variable [Facts₀]

def dot_S16x16384_S16384x512_S16x512_1_0_0_1_n_n : DotDims S16x16384 S16384x512 S16x512 where
  lhsContracting := [1]
  rhsContracting := [0]
  lhsNonContracting := [0]
  rhsNonContracting := [1]
  lhsBatch := []
  rhsBatch := []
  wf := dot_S16x16384_S16384x512_S16x512_1_0_0_1_n_n_wf

class Facts : Prop extends Facts₀ where

variable [Facts]
-- ==== Proof.Moments.lean ====
/-
  Per-scene batch normalisation: the real-number laws that join the two programs' arrangements of one computation.

  Both programs take a batch `x` of 16384 rows and, per column, need its mean and variance. One of them
  accumulates `Σ x` and `Σ x²` tile by tile (eight tiles of 2048 rows), scales both by the literal `2⁻¹⁴` and takes
  `E[x²] − E[x]²`; the other divides `Σ x` by the literal `16384`, subtracts that mean from every row and divides
  `Σ (x − μ)²` by `16384` again. Over the extended reals these agree exactly when every `x` is a real number:

    * dividing by `16384` IS multiplying by `2⁻¹⁴`, on every extended real (`div_batch`);
    * `(1/n) Σ (xₖ − μ)² = (1/n) Σ xₖ² − μ²` for `μ = (1/n) Σ xₖ` — the variance identity, which distributes a
      product over a sum and so needs the `xₖ` finite (`var_real` over ℝ, `var_finite` lifted);
    * a sum over all 16384 rows is the sum over its first `2048·n` rows plus tile `n`'s 2048 rows (`sum_range_tile`),
      which is what lets the tile-by-tile accumulation be read as one sum by induction on the tile;
    * a row of a 16-row table picked out by summing it against a one-hot column is that row (`sum_mul_onehot`):
      `a · 0 = 0` and `a · 1 = a` hold on all of the extended reals, so this needs no finiteness.
-/
import Idealize.ShloMosaic.PureOps.Ideal
import Mathlib.Algebra.BigOperators.Fin
import Mathlib.Algebra.BigOperators.Group.Finset.Basic
import Mathlib.Tactic.FieldSimp
import Mathlib.Tactic.Ring
import Mathlib.Tactic.NormNum

noncomputable section

namespace Cert.Moments

open Idealize.ShloMosaic

/-! ## The literals -/

/-- The pattern `0x38800000` (sign 0, exponent 113, fraction 0) denotes `2⁻¹⁴ = 1/16384`, exactly. -/
theorem ofBits_inv_batch : Ideal.ofBits .f32 0x38800000#32 = ((1 / 16384 : ℝ) : EReal) := by
  simp [Ideal.ofBits, Ideal.ieee, -EReal.coe_mul]; norm_num

/-- The pattern `0x46800000` (sign 0, exponent 141, fraction 0) denotes `2¹⁴ = 16384`. -/
theorem ofBits_batch : Ideal.ofBits .f32 0x46800000#32 = ((16384 : ℝ) : EReal) := by
  simp [Ideal.ofBits, Ideal.ieee, -EReal.coe_mul]; norm_num

/-- `+0.0` denotes `0`. -/
theorem ofBits_zero : Ideal.ofBits .f32 0x00000000#32 = 0 := by
  simp [Ideal.ofBits, Ideal.ieee]

/-- Dividing by the batch size is multiplying by its reciprocal, at every extended real: no finiteness is used. -/
theorem div_batch (y : EReal) :
    Ideal.div y (Ideal.ofBits .f32 0x46800000#32) = y * Ideal.ofBits .f32 0x38800000#32 := by
  rw [ofBits_batch, ofBits_inv_batch]
  exact Ideal.div_coe (by norm_num : (16384 : ℝ) ≠ 0) y

/-! ## Sums: coercion, tiles, one-hot selection -/

/-- The coercion from the reals commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A function on the first `n` naturals, continued by zero: the form in which partial sums over row tiles are stated. -/
def ext0 {n : ℕ} (f : Fin n → EReal) (k : ℕ) : EReal := if h : k < n then f ⟨k, h⟩ else 0

theorem ext0_of_lt {n : ℕ} (f : Fin n → EReal) {k : ℕ} (h : k < n) : ext0 f k = f ⟨k, h⟩ := dif_pos h

/-- Summed over all of its `n` arguments, the continuation is the sum of the function. -/
theorem sum_range_ext0 {n : ℕ} (f : Fin n → EReal) : ∑ k ∈ Finset.range n, ext0 f k = ∑ b : Fin n, f b := by
  rw [Finset.sum_range]
  exact Finset.sum_congr rfl fun b _ => ext0_of_lt f b.isLt

/-- The rows below `T·(n+1)` are the rows below `T·n` and then tile `n`'s `T` rows. -/
theorem sum_range_tile (g : ℕ → EReal) (T n : ℕ) :
    ∑ k ∈ Finset.range (T * (n + 1)), g k = ∑ k ∈ Finset.range (T * n), g k + ∑ r : Fin T, g (T * n + r.val) := by
  rw [Nat.mul_succ, Finset.sum_range_add, Finset.sum_range (fun r => g (T * n + r))]

/-- Summing a table's rows against a one-hot column picks the hot row. -/
theorem sum_mul_onehot {n : ℕ} (a : Fin n → EReal) (s : Fin n) :
    ∑ r : Fin n, a r * (if r = s then (1 : EReal) else 0) = a s := by
  rw [Finset.sum_eq_single s (fun r _ hr => by rw [if_neg hr, mul_zero]) (fun h => absurd (Finset.mem_univ s) h),
    if_pos rfl, mul_one]

/-! ## The variance identity -/

/-- Over the reals: the mean of the squared deviations from the mean is the mean of the squares less the squared mean. -/
theorem var_real (n : ℕ) (hn : (n : ℝ) ≠ 0) (r : Fin n → ℝ) :
    (∑ k, (r k - (∑ k, r k) * (1 / (n : ℝ))) * (r k - (∑ k, r k) * (1 / (n : ℝ)))) * (1 / (n : ℝ))
      = (∑ k, r k * r k) * (1 / (n : ℝ)) - ((∑ k, r k) * (1 / (n : ℝ))) * ((∑ k, r k) * (1 / (n : ℝ))) := by
  have e : ∀ μ : ℝ, ∑ k, (r k - μ) * (r k - μ) = (∑ k, r k * r k) - 2 * μ * (∑ k, r k) + (n : ℝ) * (μ * μ) := by
    intro μ
    have : ∀ k, (r k - μ) * (r k - μ) = r k * r k - 2 * μ * r k + μ * μ := fun k => by ring
    simp only [this, Finset.sum_add_distrib, Finset.sum_sub_distrib, ← Finset.mul_sum, Finset.sum_const,
      Finset.card_univ, Fintype.card_fin, nsmul_eq_mul]
    ring
  rw [e]
  field_simp
  ring

/-- Over the extended reals, for a batch of 16384 finite numbers: the two-pass variance (subtract the mean, square, sum,
    scale) is the one-pass variance (mean of squares less squared mean), the scale being `2⁻¹⁴` on both sides. -/
theorem var_finite (x : Fin 16384 → EReal) (hx : ∀ k, ∃ r : ℝ, x k = (r : EReal)) :
    (∑ k, (x k - (∑ k, x k) * ((1 / 16384 : ℝ) : EReal)) * (x k - (∑ k, x k) * ((1 / 16384 : ℝ) : EReal))) * ((1 / 16384 : ℝ) : EReal)
      = (∑ k, x k * x k) * ((1 / 16384 : ℝ) : EReal)
        - ((∑ k, x k) * ((1 / 16384 : ℝ) : EReal)) * ((∑ k, x k) * ((1 / 16384 : ℝ) : EReal)) := by
  choose r hr using hx
  obtain rfl : x = fun k => (r k : EReal) := funext hr
  have h := var_real 16384 (by norm_num) r
  simp only [Nat.cast_ofNat] at h
  simp only [← coe_sum, ← EReal.coe_mul, ← EReal.coe_sub]
  exact congrArg _ h

/-! ## The two programs' spellings of the mean and the variance -/

/-- One program's column mean: the sum, started from `+0.0`, divided by the batch size; the other's: the sum times `2⁻¹⁴`. -/
theorem mean_bridge (S : EReal) :
    Ideal.div (Ideal.ofBits .f32 0x00000000#32 + S) (Ideal.ofBits .f32 0x46800000#32) = S * Ideal.ofBits .f32 0x38800000#32 := by
  rw [ofBits_zero, zero_add, div_batch]

/-- One program's column variance — subtract its mean from every row, square, sum from `+0.0`, divide by the batch size —
    against the other's — the sum of squares times `2⁻¹⁴` less the square of the sum times `2⁻¹⁴` —, for a finite column. -/
theorem var_bridge (x : Fin 16384 → EReal) (hx : ∀ k, ∃ r : ℝ, x k = (r : EReal)) :
    Ideal.div (Ideal.ofBits .f32 0x00000000#32
        + ∑ k, (x k - Ideal.div (Ideal.ofBits .f32 0x00000000#32 + ∑ k, x k) (Ideal.ofBits .f32 0x46800000#32))
             * (x k - Ideal.div (Ideal.ofBits .f32 0x00000000#32 + ∑ k, x k) (Ideal.ofBits .f32 0x46800000#32)))
      (Ideal.ofBits .f32 0x46800000#32)
      = (∑ k, x k * x k) * Ideal.ofBits .f32 0x38800000#32
        - ((∑ k, x k) * Ideal.ofBits .f32 0x38800000#32) * ((∑ k, x k) * Ideal.ofBits .f32 0x38800000#32) := by
  rw [mean_bridge, mean_bridge, ofBits_inv_batch]
  exact var_finite x hx

/-! ## Finiteness, as the precondition spells it -/

/-- The pattern `0x7F800000` (all exponent bits, no fraction) denotes `+∞`. -/
theorem ofBits_inf : Ideal.ofBits .f32 0x7F800000#32 = ⊤ := by
  simp [Ideal.ofBits, Ideal.ieee]

/-- An extended real whose absolute value `max x (−x)` compares below `+∞` is a real number: it is neither infinity. -/
theorem real_of_abs_lt_inf (x : EReal)
    (h : Ideal.cmp .olt (max x (-x)) (Ideal.ofBits .f32 0x7F800000#32) = 1#1) : ∃ r : ℝ, x = (r : EReal) := by
  rw [ofBits_inf] at h
  have h' : max x (-x) < ⊤ := by
    by_contra hn
    simp [Ideal.cmp, hn] at h
  have h1 : x < ⊤ := lt_of_le_of_lt (le_max_left _ _) h'
  have h2 : -x < ⊤ := lt_of_le_of_lt (le_max_right _ _) h'
  have hb : x ≠ ⊥ := fun e => by simp [e] at h2
  exact ⟨x.toReal, (EReal.coe_toReal h1.ne hb).symm⟩

/-! ## Scene membership -/

/-- Whether a row whose scene id is the word `sid` belongs to scene `s`, as the number `1` or `0`: both programs compare the
    id with `s` and convert the one-bit answer to a float. -/
def member (sid : BitVec 32) (s : Fin 16) : EReal :=
  FloatOps.uitofp (F := Ideal) .f32 (IntOp.cmpi .eq sid (BitVec.ofNat 32 s.val))

end Cert.Moments

end
-- ==== Proof.Finite.lean ====
/-
  The precondition, read: every entry of the batch is a real number.

  The printed precondition is one bit: the conjunction, over the seven float inputs, of "every entry's absolute value compares
  below `+∞`". Where that bit is `1`, so is each conjunct; the first conjunct is an all-reduction by `and` over the batch, so the
  comparison holds at every entry; and an extended real whose absolute value is below `+∞` is neither infinity.
-/
import proofs.«127924_j88785563943272_1_alg».proof.Pre_finite_inputs
import proofs.«127924_j88785563943272_1_alg».proof.Proof.Moments
import Idealize.ShloMosaic.PureOps.Ideal
import Idealize.ShloMosaic.Lib.ReduceAll
import Idealize.ShloMosaic.Lib.Affine
import Idealize.ShloMosaic.Lib.Pipeline.Value
import Idealize.ShloMosaic.Lib.ValueIdx

noncomputable section

open Idealize.ShloMosaic Idealize.ShloMosaic.TcCoe

namespace Cert.Finite

open Cert.Pre_finite_inputs Cert.Pre_finite_inputs.Facts

variable [Cert.Pre_finite_inputs.Facts]

instance : Subsingleton S_.Idx := ⟨fun a b => funext fun d => d.elim0⟩

/-- Where the printed precondition holds, every entry of its first argument (the batch) is a real number. -/
theorem batch_real (a0 : FVec Ideal S16384x512 .f32) (a1 : IVec S16384x1 32) (a2 a3 : FVec Ideal S512 .f32)
    (a4 a5 a6 a7 : FVec Ideal S16x512 .f32)
    (h : Cert.Pre_finite_inputs.fn (F := Ideal) a0 a1 a2 a3 a4 a5 a6 a7 = fun _ => 1#1) (i : S16384x512.Idx) :
    ∃ r : ℝ, a0 i = (r : EReal) := by
  have h0 := congrFun h ValueIdx.ix0
  dsimp only [fn, fn_part1, andi] at h0
  simp only [IntOp.andi_eq_one] at h0
  have hall := Host.reduce_andi_all _ _ _ _ _ h0.1.1.1.1.1.1 i
  have hb : broadcastInDim S16384x512 ![] bcast_S_S16384x512 (constant (F := Ideal) S_ .f32 0x7F800000#32) i
      = Ideal.ofBits .f32 0x7F800000#32 :=
    broadcastInDim_apply _ bcast_S_S16384x512 _ i (fun a => a.elim0) (fun a => a.elim0)
  apply Cert.Moments.real_of_abs_lt_inf
  rw [← hb]
  exact hall

end Cert.Finite

end
-- ==== Proof.HostRead.lean ====
/-
  The host operations around the two regions, read as values.

  Before the first region the program builds the membership table: entry `(b, s)` compares row `b`'s scene id with `s` and
  converts the answer to `1.0` or `0.0`. Between the regions it turns the four accumulated sums into the batch mean
  `Σx · 2⁻¹⁴`, the batch variance `Σx² · 2⁻¹⁴ − mean²` and its reciprocal root after adding `ε`, the per-scene mean and
  variance in the same form, the two moving averages, and the per-scene scale `scale_com · scale_scenes` and offset
  `offset_com + offset_scenes`. Every one of these is pointwise once the broadcasts and reshapes are read at an index,
  which is all this module does.
-/
import proofs.«127924_j88785563943272_1_alg».proof.Proof.FrameIdeal
import proofs.«127924_j88785563943272_1_alg».proof.Proof.Moments
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx Idealize.ShloMosaic.StableHlo

namespace Cert.KernelIdeal.HostRead

open Cert.KernelIdeal Cert.KernelIdeal.Gen Cert.KernelIdeal.GenP Cert.Moments

/-! ## Broadcasts and reshapes at an index -/

section Layout
variable {α : Type}

/-- A column `[16384,1]` repeated along 16 columns. -/
theorem bc_col (Y : S16384x1.Idx → α) (b : Fin 16384) (s : Fin 16) :
    broadcastInDim S16384x16 ![0, 1] bcast_S16384x1_S16384x16_0_1 Y (ix2 b s) = Y (ix2 b 0) :=
  broadcastInDim_apply _ bcast_S16384x1_S16384x16_0_1 Y (ix2 b s) (ix2 b 0) (fun a => match a with
    | ⟨0, _⟩ => by show b.val = if (16384 : Nat) = 1 then 0 else b.val; rw [if_neg (by decide)]
    | ⟨1, _⟩ => by show 0 = if (1 : Nat) = 1 then 0 else s.val; rw [if_pos rfl])

/-- A vector `[16384]` as a column `[16384,1]`. -/
theorem bc_vec_col (Y : S16384.Idx → α) (b : Fin 16384) :
    broadcastInDim S16384x1 ![0] bcast_S16384_S16384x1_0 Y (ix2 b 0) = Y (ix1 b) :=
  broadcastInDim_apply _ bcast_S16384_S16384x1_0 Y (ix2 b 0) (ix1 b) (fun a => match a with
    | ⟨0, _⟩ => by show b.val = if (16384 : Nat) = 1 then 0 else b.val; rw [if_neg (by decide)])

/-- A column `[16384,1]` reshaped to a vector `[16384]`. -/
theorem rs_col_vec (Y : S16384x1.Idx → α) (b : Fin 16384) :
    shapeCast S16384 Y shapeCasts_S16384x1_S16384 (ix1 b) = Y (ix2 b 0) :=
  shapeCast_apply Y shapeCasts_S16384x1_S16384 (ix1 b) (ix2 b 0)
    (by rewrite [Shape.rowMajor_val_two, Shape.rowMajor_val_one]; show b.val * 1 + 0 = b.val; omega)

/-- A row `[1,16]` repeated along 16384 rows. -/
theorem bc_row (Y : S1x16.Idx → α) (b : Fin 16384) (s : Fin 16) :
    broadcastInDim S16384x16 ![0, 1] bcast_S1x16_S16384x16_0_1 Y (ix2 b s) = Y (ix2 0 s) :=
  broadcastInDim_apply _ bcast_S1x16_S16384x16_0_1 Y (ix2 b s) (ix2 0 s) (fun a => match a with
    | ⟨0, _⟩ => by show 0 = if (1 : Nat) = 1 then 0 else b.val; rw [if_pos rfl]
    | ⟨1, _⟩ => by show s.val = if (16 : Nat) = 1 then 0 else s.val; rw [if_neg (by decide)])

/-- A vector `[16]` as a row `[1,16]`. -/
theorem bc_vec_row16 (Y : S16.Idx → α) (s : Fin 16) :
    broadcastInDim S1x16 ![1] bcast_S16_S1x16_1 Y (ix2 0 s) = Y (ix1 s) :=
  broadcastInDim_apply _ bcast_S16_S1x16_1 Y (ix2 0 s) (ix1 s) (fun a => match a with
    | ⟨0, _⟩ => by show s.val = if (16 : Nat) = 1 then 0 else s.val; rw [if_neg (by decide)])

/-- A scalar repeated along `[512]`. -/
theorem bc_scalar_vec (Y : S_.Idx → α) (i : S512.Idx) :
    broadcastInDim S512 ![] bcast_S_S512 Y i = Y (fun a => a.elim0) :=
  broadcastInDim_apply _ bcast_S_S512 Y i (fun a => a.elim0) (fun a => a.elim0)

/-- A scalar repeated along `[16,512]`. -/
theorem bc_scalar_tab (Y : S_.Idx → α) (i : S16x512.Idx) :
    broadcastInDim S16x512 ![] bcast_S_S16x512 Y i = Y (fun a => a.elim0) :=
  broadcastInDim_apply _ bcast_S_S16x512 Y i (fun a => a.elim0) (fun a => a.elim0)

/-- A vector `[512]` as a row `[1,512]`. -/
theorem bc_vec_row (Y : S512.Idx → α) (d : Fin 512) :
    broadcastInDim S1x512 ![1] bcast_S512_S1x512_1 Y (ix2 0 d) = Y (ix1 d) :=
  broadcastInDim_apply _ bcast_S512_S1x512_1 Y (ix2 0 d) (ix1 d) (fun a => match a with
    | ⟨0, _⟩ => by show d.val = if (512 : Nat) = 1 then 0 else d.val; rw [if_neg (by decide)])

/-- A row `[1,512]` repeated along 16 rows. -/
theorem bc_row_tab (Y : S1x512.Idx → α) (s : Fin 16) (d : Fin 512) :
    broadcastInDim S16x512 ![0, 1] bcast_S1x512_S16x512_0_1 Y (ix2 s d) = Y (ix2 0 d) :=
  broadcastInDim_apply _ bcast_S1x512_S16x512_0_1 Y (ix2 s d) (ix2 0 d) (fun a => match a with
    | ⟨0, _⟩ => by show 0 = if (1 : Nat) = 1 then 0 else s.val; rw [if_pos rfl]
    | ⟨1, _⟩ => by show d.val = if (512 : Nat) = 1 then 0 else d.val; rw [if_neg (by decide)])

/-- A row `[1,512]` reshaped to a vector `[512]`. -/
theorem rs_row_vec (Y : S1x512.Idx → α) (d : Fin 512) :
    shapeCast S512 Y shapeCasts_S1x512_S512 (ix1 d) = Y (ix2 0 d) :=
  shapeCast_apply Y shapeCasts_S1x512_S512 (ix1 d) (ix2 0 d)
    (by rewrite [Shape.rowMajor_val_two, Shape.rowMajor_val_one]; show 0 * 512 + d.val = d.val; omega)

/-- A vector `[512]` reshaped to a row `[1,512]`. -/
theorem rs_vec_row (Y : S512.Idx → α) (d : Fin 512) :
    shapeCast S1x512 Y shapeCasts_S512_S1x512 (ix2 0 d) = Y (ix1 d) :=
  shapeCast_apply Y shapeCasts_S512_S1x512 (ix2 0 d) (ix1 d)
    (by rewrite [Shape.rowMajor_val_two, Shape.rowMajor_val_one]; show d.val = 0 * 512 + d.val; omega)

end Layout

variable (m : (ℓ : Loc nD τ sig) → Buf (Elt Ideal) ℓ) (ρ : Dev nD → PrngReg)

/-! ## Before the first region: the membership table -/

/-- The table the first region finds in its second window, as the host operations' term over the scene ids. -/
theorem memb_arr (c : Dev nD) :
    (V1 m ρ c main_v7 : FVec Ideal S16384x16 .f32)
      = uitofp (F := Ideal) .f32 (cmpi .eq
          (broadcastInDim S16384x16 ![0, 1] bcast_S16384x1_S16384x16_0_1
            (broadcastInDim S16384x1 ![0] bcast_S16384_S16384x1_0
              (shapeCast S16384 (m ((c : Thread nD τ).loc main_arg1)) shapeCasts_S16384x1_S16384)))
          (broadcastInDim S16384x16 ![0, 1] bcast_S1x16_S16384x16_0_1
            (broadcastInDim S1x16 ![1] bcast_S16_S1x16_1 (iotaInDim S16 32 0)))) := by
  show StableHlo.after hostOps0 (W0 m ρ c) (Proc.devRef .tc main_v7) = _
  after_results
  rfl

/-- Entry `(b, s)` of the table: is row `b`'s scene id `s`. -/
theorem memb_apply (c : Dev nD) (b : Fin 16384) (s : Fin 16) :
    (V1 m ρ c main_v7 : FVec Ideal S16384x16 .f32) (ix2 b s) = member (m ((c : Thread nD τ).loc main_arg1) (ix2 b 0)) s := by
  rw [memb_arr]
  show FloatOps.uitofp .f32 (IntOp.cmpi .eq _ _) = FloatOps.uitofp .f32 (IntOp.cmpi .eq _ _)
  rw [bc_col, bc_vec_col, rs_col_vec, bc_row, bc_vec_row16]
  rfl

/-- The batch is untouched by the operations before the first region. -/
theorem batch_V1 (c : Dev nD) : V1 m ρ c main_arg0 = m ((c : Thread nD τ).loc main_arg0) := by
  show StableHlo.after hostOps0 (W0 m ρ c) (Proc.devRef .tc main_arg0) = _
  after_results

/-! ## Between the regions: the moments, the moving averages, the scale and the offset -/

/-- The four sums the first region leaves, and the six arguments the operations between the regions read, as those
    operations find them. -/
abbrev sumX (c : Dev nD) : FVec Ideal S1x512 .f32 := W2 m ρ c (Proc.devRef .tc main_v8_0)
abbrev sumXX (c : Dev nD) : FVec Ideal S1x512 .f32 := W2 m ρ c (Proc.devRef .tc main_v8_1)
abbrev scX (c : Dev nD) : FVec Ideal S16x512 .f32 := W2 m ρ c (Proc.devRef .tc main_v8_2)
abbrev scXX (c : Dev nD) : FVec Ideal S16x512 .f32 := W2 m ρ c (Proc.devRef .tc main_v8_3)
abbrev a2 (c : Dev nD) : FVec Ideal S512 .f32 := W2 m ρ c (Proc.devRef .tc main_arg2)
abbrev a3 (c : Dev nD) : FVec Ideal S512 .f32 := W2 m ρ c (Proc.devRef .tc main_arg3)
abbrev a4 (c : Dev nD) : FVec Ideal S16x512 .f32 := W2 m ρ c (Proc.devRef .tc main_arg4)
abbrev a5 (c : Dev nD) : FVec Ideal S16x512 .f32 := W2 m ρ c (Proc.devRef .tc main_arg5)
abbrev a6 (c : Dev nD) : FVec Ideal S16x512 .f32 := W2 m ρ c (Proc.devRef .tc main_arg6)
abbrev a7 (c : Dev nD) : FVec Ideal S16x512 .f32 := W2 m ρ c (Proc.devRef .tc main_arg7)

/-- The batch mean as a vector `[512]`: the column sums times `2⁻¹⁴`. -/
abbrev meanVec (c : Dev nD) : FVec Ideal S512 .f32 :=
  mulf (shapeCast S512 (sumX m ρ c) shapeCasts_S1x512_S512)
    (broadcastInDim S512 ![] bcast_S_S512 (constant (F := Ideal) S_ .f32 0x38800000#32))

/-- The batch variance plus `ε`, as a vector `[512]`. -/
abbrev varEpsVec (c : Dev nD) : FVec Ideal S512 .f32 :=
  addf (subf (mulf (shapeCast S512 (sumXX m ρ c) shapeCasts_S1x512_S512)
      (broadcastInDim S512 ![] bcast_S_S512 (constant (F := Ideal) S_ .f32 0x38800000#32)))
    (mulf (meanVec m ρ c) (meanVec m ρ c)))
    (broadcastInDim S512 ![] bcast_S_S512 (constant (F := Ideal) S_ .f32 0x3A83126F#32))

/-- The per-scene mean: the scene sums times `2⁻¹⁴`. -/
abbrev scMeanTab (c : Dev nD) : FVec Ideal S16x512 .f32 :=
  mulf (scX m ρ c) (broadcastInDim S16x512 ![] bcast_S_S16x512 (constant (F := Ideal) S_ .f32 0x38800000#32))

theorem bmean_arr (c : Dev nD) :
    (V3 m ρ c main_v42 : FVec Ideal S1x512 .f32) = shapeCast S1x512 (meanVec m ρ c) shapeCasts_S512_S1x512 := by
  show StableHlo.after hostOps1 (W2 m ρ c) (Proc.devRef .tc main_v42) = _
  after_results_simp
  rfl

theorem istd_arr (c : Dev nD) :
    (V3 m ρ c main_v43 : FVec Ideal S1x512 .f32)
      = shapeCast S1x512 (Host.rsqrt (varEpsVec m ρ c)) shapeCasts_S512_S1x512 := by
  show StableHlo.after hostOps1 (W2 m ρ c) (Proc.devRef .tc main_v43) = _
  after_results_simp
  rfl

theorem scale_arr (c : Dev nD) :
    (V3 m ρ c main_v38 : FVec Ideal S16x512 .f32)
      = mulf (broadcastInDim S16x512 ![0, 1] bcast_S1x512_S16x512_0_1
          (broadcastInDim S1x512 ![1] bcast_S512_S1x512_1 (a2 m ρ c))) (a4 m ρ c) := by
  show StableHlo.after hostOps1 (W2 m ρ c) (Proc.devRef .tc main_v38) = _
  after_results_simp

theorem offset_arr (c : Dev nD) :
    (V3 m ρ c main_v41 : FVec Ideal S16x512 .f32)
      = addf (broadcastInDim S16x512 ![0, 1] bcast_S1x512_S16x512_0_1
          (broadcastInDim S1x512 ![1] bcast_S512_S1x512_1 (a3 m ρ c))) (a5 m ρ c) := by
  show StableHlo.after hostOps1 (W2 m ρ c) (Proc.devRef .tc main_v41) = _
  after_results_simp

theorem newmean_arr (c : Dev nD) :
    (V3 m ρ c main_v27 : FVec Ideal S16x512 .f32)
      = addf (mulf (a6 m ρ c) (broadcastInDim S16x512 ![] bcast_S_S16x512 (constant (F := Ideal) S_ .f32 0x3F7D70A4#32)))
          (mulf (scMeanTab m ρ c) (broadcastInDim S16x512 ![] bcast_S_S16x512 (constant (F := Ideal) S_ .f32 0x3C23D70A#32))) := by
  show StableHlo.after hostOps1 (W2 m ρ c) (Proc.devRef .tc main_v27) = _
  after_results_simp

theorem newvar_arr (c : Dev nD) :
    (V3 m ρ c main_v32 : FVec Ideal S16x512 .f32)
      = addf (mulf (a7 m ρ c) (broadcastInDim S16x512 ![] bcast_S_S16x512 (constant (F := Ideal) S_ .f32 0x3F7D70A4#32)))
          (mulf (subf (mulf (scXX m ρ c) (broadcastInDim S16x512 ![] bcast_S_S16x512 (constant (F := Ideal) S_ .f32 0x38800000#32)))
              (mulf (scMeanTab m ρ c) (scMeanTab m ρ c)))
            (broadcastInDim S16x512 ![] bcast_S_S16x512 (constant (F := Ideal) S_ .f32 0x3C23D70A#32))) := by
  show StableHlo.after hostOps1 (W2 m ρ c) (Proc.devRef .tc main_v32) = _
  after_results_simp

/-- The batch is untouched by the operations between the regions. -/
theorem batch_V3 (c : Dev nD) : V3 m ρ c main_arg0 = W2 m ρ c (Proc.devRef .tc main_arg0) := by
  show StableHlo.after hostOps1 (W2 m ρ c) (Proc.devRef .tc main_arg0) = _
  after_results_simp

/-! ### The same, at an index -/

theorem meanVec_apply (c : Dev nD) (d : Fin 512) :
    meanVec m ρ c (ix1 d) = sumX m ρ c (ix2 0 d) * Ideal.ofBits .f32 0x38800000#32 := by
  show shapeCast S512 (sumX m ρ c) shapeCasts_S1x512_S512 (ix1 d)
      * broadcastInDim S512 ![] bcast_S_S512 (constant (F := Ideal) S_ .f32 0x38800000#32) (ix1 d) = _
  rw [rs_row_vec, bc_scalar_vec]
  rfl

theorem bmean_apply (c : Dev nD) (d : Fin 512) :
    (V3 m ρ c main_v42 : FVec Ideal S1x512 .f32) (ix2 0 d) = sumX m ρ c (ix2 0 d) * Ideal.ofBits .f32 0x38800000#32 := by
  rw [bmean_arr, rs_vec_row, meanVec_apply]

theorem istd_apply (c : Dev nD) (d : Fin 512) :
    (V3 m ρ c main_v43 : FVec Ideal S1x512 .f32) (ix2 0 d)
      = Ideal.rsqrt ((sumXX m ρ c (ix2 0 d) * Ideal.ofBits .f32 0x38800000#32
            - sumX m ρ c (ix2 0 d) * Ideal.ofBits .f32 0x38800000#32 * (sumX m ρ c (ix2 0 d) * Ideal.ofBits .f32 0x38800000#32))
          + Ideal.ofBits .f32 0x3A83126F#32) := by
  rw [istd_arr, rs_vec_row]
  show Ideal.rsqrt ((shapeCast S512 (sumXX m ρ c) shapeCasts_S1x512_S512 (ix1 d)
        * broadcastInDim S512 ![] bcast_S_S512 (constant (F := Ideal) S_ .f32 0x38800000#32) (ix1 d)
        - meanVec m ρ c (ix1 d) * meanVec m ρ c (ix1 d))
      + broadcastInDim S512 ![] bcast_S_S512 (constant (F := Ideal) S_ .f32 0x3A83126F#32) (ix1 d)) = _
  rw [rs_row_vec, bc_scalar_vec, bc_scalar_vec, meanVec_apply]
  rfl

theorem scale_apply (c : Dev nD) (s : Fin 16) (d : Fin 512) :
    (V3 m ρ c main_v38 : FVec Ideal S16x512 .f32) (ix2 s d) = a2 m ρ c (ix1 d) * a4 m ρ c (ix2 s d) := by
  rw [scale_arr]
  show broadcastInDim S16x512 ![0, 1] bcast_S1x512_S16x512_0_1
      (broadcastInDim S1x512 ![1] bcast_S512_S1x512_1 (a2 m ρ c)) (ix2 s d) * a4 m ρ c (ix2 s d) = _
  rw [bc_row_tab, bc_vec_row]

theorem offset_apply (c : Dev nD) (s : Fin 16) (d : Fin 512) :
    (V3 m ρ c main_v41 : FVec Ideal S16x512 .f32) (ix2 s d) = a3 m ρ c (ix1 d) + a5 m ρ c (ix2 s d) := by
  rw [offset_arr]
  show broadcastInDim S16x512 ![0, 1] bcast_S1x512_S16x512_0_1
      (broadcastInDim S1x512 ![1] bcast_S512_S1x512_1 (a3 m ρ c)) (ix2 s d) + a5 m ρ c (ix2 s d) = _
  rw [bc_row_tab, bc_vec_row]

theorem scMeanTab_apply (c : Dev nD) (s : Fin 16) (d : Fin 512) :
    scMeanTab m ρ c (ix2 s d) = scX m ρ c (ix2 s d) * Ideal.ofBits .f32 0x38800000#32 := by
  show scX m ρ c (ix2 s d) * broadcastInDim S16x512 ![] bcast_S_S16x512 (constant (F := Ideal) S_ .f32 0x38800000#32) (ix2 s d) = _
  rw [bc_scalar_tab]
  rfl

theorem newmean_apply (c : Dev nD) (s : Fin 16) (d : Fin 512) :
    (V3 m ρ c main_v27 : FVec Ideal S16x512 .f32) (ix2 s d)
      = a6 m ρ c (ix2 s d) * Ideal.ofBits .f32 0x3F7D70A4#32
        + scX m ρ c (ix2 s d) * Ideal.ofBits .f32 0x38800000#32 * Ideal.ofBits .f32 0x3C23D70A#32 := by
  rw [newmean_arr]
  show a6 m ρ c (ix2 s d) * broadcastInDim S16x512 ![] bcast_S_S16x512 (constant (F := Ideal) S_ .f32 0x3F7D70A4#32) (ix2 s d)
      + scMeanTab m ρ c (ix2 s d) * broadcastInDim S16x512 ![] bcast_S_S16x512 (constant (F := Ideal) S_ .f32 0x3C23D70A#32) (ix2 s d) = _
  rw [bc_scalar_tab, bc_scalar_tab, scMeanTab_apply]
  rfl

theorem newvar_apply (c : Dev nD) (s : Fin 16) (d : Fin 512) :
    (V3 m ρ c main_v32 : FVec Ideal S16x512 .f32) (ix2 s d)
      = a7 m ρ c (ix2 s d) * Ideal.ofBits .f32 0x3F7D70A4#32
        + (scXX m ρ c (ix2 s d) * Ideal.ofBits .f32 0x38800000#32
            - scX m ρ c (ix2 s d) * Ideal.ofBits .f32 0x38800000#32 * (scX m ρ c (ix2 s d) * Ideal.ofBits .f32 0x38800000#32))
          * Ideal.ofBits .f32 0x3C23D70A#32 := by
  rw [newvar_arr]
  show a7 m ρ c (ix2 s d) * broadcastInDim S16x512 ![] bcast_S_S16x512 (constant (F := Ideal) S_ .f32 0x3F7D70A4#32) (ix2 s d)
      + (scXX m ρ c (ix2 s d) * broadcastInDim S16x512 ![] bcast_S_S16x512 (constant (F := Ideal) S_ .f32 0x38800000#32) (ix2 s d)
          - scMeanTab m ρ c (ix2 s d) * scMeanTab m ρ c (ix2 s d))
        * broadcastInDim S16x512 ![] bcast_S_S16x512 (constant (F := Ideal) S_ .f32 0x3C23D70A#32) (ix2 s d) = _
  rw [bc_scalar_tab, bc_scalar_tab, bc_scalar_tab, scMeanTab_apply]
  rfl

end Cert.KernelIdeal.HostRead

end
-- ==== Proof.Stats.lean ====
/-
  The first region: after its eight row tiles the four output arrays hold the column sums of the batch, of its squares, and
  the same two sums weighted by each scene's membership column.
-/
import proofs.«127924_j88785563943272_1_alg».proof.Proof.FrameIdeal
import proofs.«127924_j88785563943272_1_alg».proof.Proof.Moments
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Stats

open Cert.KernelIdeal Cert.KernelIdeal.Gen Cert.KernelIdeal.GenP

section Pieces
variable {F : FTy → Type} [FloatOps F]

/-! ## What one grid point leaves in each output's staging buffer, for any float values

At a later point (the reset not taken) each output's one store writes its update of what the buffer held; at the first
point the reset's zero block is stored first, read back, and the update of that is stored over it. Every load and store
covers its whole buffer, so each buffer ends holding exactly the last store's value. -/

/-- A whole-buffer access sits at offsets `(0, 0)`. -/
theorem hz : (![0, 0] : Fin 2 → Nat) = fun _ => 0 := funext fun a => by fin_cases a <;> rfl

/-- A later point leaves in output 2 the column-sum update of its previous contents. -/
theorem out_B_2 (c : Dev nD) (i : grid0.Coords) (a1 : Memref sig .tc .vmem S2048x512 .f32) (h1 : a1.IsWhole) (a2 : Memref sig .tc .vmem S2048x16 .f32) (h2 : a2.IsWhole) (a3 : Memref sig .tc .vmem S1x512 .f32) (h3 : a3.IsWhole) (a4 : Memref sig .tc .vmem S1x512 .f32) (h4 : a4.IsWhole) (a5 : Memref sig .tc .vmem S16x512 .f32) (h5 : a5.IsWhole) (a6 : Memref sig .tc .vmem S16x512 .f32) (h6 : a6.IsWhole) (hc : ¬cond0_0 i)
    (x0 : Vec F S2048x512 .f32) (x1 : Vec F S2048x16 .f32) (xo2 : Vec F S1x512 .f32) (xo3 : Vec F S1x512 .f32) (xo4 : Vec F S16x512 .f32) (xo5 : Vec F S16x512 .f32) :
    out0_B_2 c i a1 h1 a2 h2 a3 h3 a4 h4 a5 h5 a6 h6 hc x0 x1 xo2 xo3 xo4 xo5 = k0_pay7 x0 xo2 := by
  unfold out0_B_2
  rw [View.read_writes_eq_canon _ _ _ (cover0_B_2 c i a1 h1 a2 h2 a3 h3 a4 h4 a5 h5 a6 h6 hc x0 x1 xo2 xo3 xo4 xo5)]
  unfold kernelRun0_B
  dsimp only
  sl_unfold_words
  rw [View.canon_unit_zero hz]
  simp only [View.readAt_eq_ld, h1.read_unread, h2.read_unread, h3.read_unread, View.ld_unit_zero (S := S2048x512) hz,
    View.ld_unit_zero (S := S2048x16) hz, View.ld_unit_zero (S := S1x512) hz]

/-- The first point leaves in output 2 the column-sum update of the zero block. -/
theorem out_A_2 (c : Dev nD) (i : grid0.Coords) (a1 : Memref sig .tc .vmem S2048x512 .f32) (h1 : a1.IsWhole) (a2 : Memref sig .tc .vmem S2048x16 .f32) (h2 : a2.IsWhole) (a3 : Memref sig .tc .vmem S1x512 .f32) (h3 : a3.IsWhole) (a4 : Memref sig .tc .vmem S1x512 .f32) (h4 : a4.IsWhole) (a5 : Memref sig .tc .vmem S16x512 .f32) (h5 : a5.IsWhole) (a6 : Memref sig .tc .vmem S16x512 .f32) (h6 : a6.IsWhole) (hc : cond0_0 i)
    (x0 : Vec F S2048x512 .f32) (x1 : Vec F S2048x16 .f32) :
    out0_A_2 c i a1 h1 a2 h2 a3 h3 a4 h4 a5 h5 a6 h6 hc x0 x1 = k0_pay7 x0 (k0_pay1 (F := F)) := by
  unfold out0_A_2
  rw [View.read_writes_eq_canon _ _ _ (cover0_A_2 c i a1 h1 a2 h2 a3 h3 a4 h4 a5 h5 a6 h6 hc x0 x1)]
  unfold kernelRun0_A
  dsimp only
  sl_unfold_words
  rw [View.canon_cons_unit_zero (S := S1x512) hz, View.readCov_unit_zero (S := S1x512) _ hz]
  simp only [View.readAt_eq_ld, h1.read_unread, h2.read_unread, View.ld_unit_zero (S := S2048x512) hz,
    View.ld_unit_zero (S := S2048x16) hz]

/-- A later point leaves in output 3 the squared column-sum update of its previous contents. -/
theorem out_B_3 (c : Dev nD) (i : grid0.Coords) (a1 : Memref sig .tc .vmem S2048x512 .f32) (h1 : a1.IsWhole) (a2 : Memref sig .tc .vmem S2048x16 .f32) (h2 : a2.IsWhole) (a3 : Memref sig .tc .vmem S1x512 .f32) (h3 : a3.IsWhole) (a4 : Memref sig .tc .vmem S1x512 .f32) (h4 : a4.IsWhole) (a5 : Memref sig .tc .vmem S16x512 .f32) (h5 : a5.IsWhole) (a6 : Memref sig .tc .vmem S16x512 .f32) (h6 : a6.IsWhole) (hc : ¬cond0_0 i)
    (x0 : Vec F S2048x512 .f32) (x1 : Vec F S2048x16 .f32) (xo2 : Vec F S1x512 .f32) (xo3 : Vec F S1x512 .f32) (xo4 : Vec F S16x512 .f32) (xo5 : Vec F S16x512 .f32) :
    out0_B_3 c i a1 h1 a2 h2 a3 h3 a4 h4 a5 h5 a6 h6 hc x0 x1 xo2 xo3 xo4 xo5 = k0_pay8 x0 xo3 := by
  unfold out0_B_3
  rw [View.read_writes_eq_canon _ _ _ (cover0_B_3 c i a1 h1 a2 h2 a3 h3 a4 h4 a5 h5 a6 h6 hc x0 x1 xo2 xo3 xo4 xo5)]
  unfold kernelRun0_B
  dsimp only
  sl_unfold_words
  rw [View.canon_unit_zero hz]
  simp only [View.readAt_eq_ld, h1.read_unread, h2.read_unread, h4.read_unread, View.ld_unit_zero (S := S2048x512) hz,
    View.ld_unit_zero (S := S2048x16) hz, View.ld_unit_zero (S := S1x512) hz]

/-- The first point leaves in output 3 the squared column-sum update of the zero block. -/
theorem out_A_3 (c : Dev nD) (i : grid0.Coords) (a1 : Memref sig .tc .vmem S2048x512 .f32) (h1 : a1.IsWhole) (a2 : Memref sig .tc .vmem S2048x16 .f32) (h2 : a2.IsWhole) (a3 : Memref sig .tc .vmem S1x512 .f32) (h3 : a3.IsWhole) (a4 : Memref sig .tc .vmem S1x512 .f32) (h4 : a4.IsWhole) (a5 : Memref sig .tc .vmem S16x512 .f32) (h5 : a5.IsWhole) (a6 : Memref sig .tc .vmem S16x512 .f32) (h6 : a6.IsWhole) (hc : cond0_0 i)
    (x0 : Vec F S2048x512 .f32) (x1 : Vec F S2048x16 .f32) :
    out0_A_3 c i a1 h1 a2 h2 a3 h3 a4 h4 a5 h5 a6 h6 hc x0 x1 = k0_pay8 x0 (k0_pay2 (F := F)) := by
  unfold out0_A_3
  rw [View.read_writes_eq_canon _ _ _ (cover0_A_3 c i a1 h1 a2 h2 a3 h3 a4 h4 a5 h5 a6 h6 hc x0 x1)]
  unfold kernelRun0_A
  dsimp only
  sl_unfold_words
  rw [View.canon_cons_unit_zero (S := S1x512) hz, View.readCov_unit_zero (S := S1x512) _ hz]
  simp only [View.readAt_eq_ld, h1.read_unread, h2.read_unread, View.ld_unit_zero (S := S2048x512) hz,
    View.ld_unit_zero (S := S2048x16) hz]

/-- A later point leaves in output 4 the per-scene update of its previous contents. -/
theorem out_B_4 (c : Dev nD) (i : grid0.Coords) (a1 : Memref sig .tc .vmem S2048x512 .f32) (h1 : a1.IsWhole) (a2 : Memref sig .tc .vmem S2048x16 .f32) (h2 : a2.IsWhole) (a3 : Memref sig .tc .vmem S1x512 .f32) (h3 : a3.IsWhole) (a4 : Memref sig .tc .vmem S1x512 .f32) (h4 : a4.IsWhole) (a5 : Memref sig .tc .vmem S16x512 .f32) (h5 : a5.IsWhole) (a6 : Memref sig .tc .vmem S16x512 .f32) (h6 : a6.IsWhole) (hc : ¬cond0_0 i)
    (x0 : Vec F S2048x512 .f32) (x1 : Vec F S2048x16 .f32) (xo2 : Vec F S1x512 .f32) (xo3 : Vec F S1x512 .f32) (xo4 : Vec F S16x512 .f32) (xo5 : Vec F S16x512 .f32) :
    out0_B_4 c i a1 h1 a2 h2 a3 h3 a4 h4 a5 h5 a6 h6 hc x0 x1 xo2 xo3 xo4 xo5 = k0_pay9 x0 x1 xo4 := by
  unfold out0_B_4
  rw [View.read_writes_eq_canon _ _ _ (cover0_B_4 c i a1 h1 a2 h2 a3 h3 a4 h4 a5 h5 a6 h6 hc x0 x1 xo2 xo3 xo4 xo5)]
  unfold kernelRun0_B
  dsimp only
  sl_unfold_words
  rw [View.canon_unit_zero hz]
  simp only [View.readAt_eq_ld, h1.read_unread, h2.read_unread, h5.read_unread, View.ld_unit_zero (S := S2048x512) hz,
    View.ld_unit_zero (S := S2048x16) hz, View.ld_unit_zero (S := S16x512) hz]

/-- The first point leaves in output 4 the per-scene update of the zero block. -/
theorem out_A_4 (c : Dev nD) (i : grid0.Coords) (a1 : Memref sig .tc .vmem S2048x512 .f32) (h1 : a1.IsWhole) (a2 : Memref sig .tc .vmem S2048x16 .f32) (h2 : a2.IsWhole) (a3 : Memref sig .tc .vmem S1x512 .f32) (h3 : a3.IsWhole) (a4 : Memref sig .tc .vmem S1x512 .f32) (h4 : a4.IsWhole) (a5 : Memref sig .tc .vmem S16x512 .f32) (h5 : a5.IsWhole) (a6 : Memref sig .tc .vmem S16x512 .f32) (h6 : a6.IsWhole) (hc : cond0_0 i)
    (x0 : Vec F S2048x512 .f32) (x1 : Vec F S2048x16 .f32) :
    out0_A_4 c i a1 h1 a2 h2 a3 h3 a4 h4 a5 h5 a6 h6 hc x0 x1 = k0_pay9 x0 x1 (k0_pay3 (F := F)) := by
  unfold out0_A_4
  rw [View.read_writes_eq_canon _ _ _ (cover0_A_4 c i a1 h1 a2 h2 a3 h3 a4 h4 a5 h5 a6 h6 hc x0 x1)]
  unfold kernelRun0_A
  dsimp only
  sl_unfold_words
  rw [View.canon_cons_unit_zero (S := S16x512) hz, View.readCov_unit_zero (S := S16x512) _ hz]
  simp only [View.readAt_eq_ld, h1.read_unread, h2.read_unread, View.ld_unit_zero (S := S2048x512) hz,
    View.ld_unit_zero (S := S2048x16) hz]

/-- A later point leaves in output 5 the per-scene squared update of its previous contents. -/
theorem out_B_5 (c : Dev nD) (i : grid0.Coords) (a1 : Memref sig .tc .vmem S2048x512 .f32) (h1 : a1.IsWhole) (a2 : Memref sig .tc .vmem S2048x16 .f32) (h2 : a2.IsWhole) (a3 : Memref sig .tc .vmem S1x512 .f32) (h3 : a3.IsWhole) (a4 : Memref sig .tc .vmem S1x512 .f32) (h4 : a4.IsWhole) (a5 : Memref sig .tc .vmem S16x512 .f32) (h5 : a5.IsWhole) (a6 : Memref sig .tc .vmem S16x512 .f32) (h6 : a6.IsWhole) (hc : ¬cond0_0 i)
    (x0 : Vec F S2048x512 .f32) (x1 : Vec F S2048x16 .f32) (xo2 : Vec F S1x512 .f32) (xo3 : Vec F S1x512 .f32) (xo4 : Vec F S16x512 .f32) (xo5 : Vec F S16x512 .f32) :
    out0_B_5 c i a1 h1 a2 h2 a3 h3 a4 h4 a5 h5 a6 h6 hc x0 x1 xo2 xo3 xo4 xo5 = k0_pay10 x0 x1 xo5 := by
  unfold out0_B_5
  rw [View.read_writes_eq_canon _ _ _ (cover0_B_5 c i a1 h1 a2 h2 a3 h3 a4 h4 a5 h5 a6 h6 hc x0 x1 xo2 xo3 xo4 xo5)]
  unfold kernelRun0_B
  dsimp only
  sl_unfold_words
  rw [View.canon_unit_zero hz]
  simp only [View.readAt_eq_ld, h1.read_unread, h2.read_unread, h6.read_unread, View.ld_unit_zero (S := S2048x512) hz,
    View.ld_unit_zero (S := S2048x16) hz, View.ld_unit_zero (S := S16x512) hz]

/-- The first point leaves in output 5 the per-scene squared update of the zero block. -/
theorem out_A_5 (c : Dev nD) (i : grid0.Coords) (a1 : Memref sig .tc .vmem S2048x512 .f32) (h1 : a1.IsWhole) (a2 : Memref sig .tc .vmem S2048x16 .f32) (h2 : a2.IsWhole) (a3 : Memref sig .tc .vmem S1x512 .f32) (h3 : a3.IsWhole) (a4 : Memref sig .tc .vmem S1x512 .f32) (h4 : a4.IsWhole) (a5 : Memref sig .tc .vmem S16x512 .f32) (h5 : a5.IsWhole) (a6 : Memref sig .tc .vmem S16x512 .f32) (h6 : a6.IsWhole) (hc : cond0_0 i)
    (x0 : Vec F S2048x512 .f32) (x1 : Vec F S2048x16 .f32) :
    out0_A_5 c i a1 h1 a2 h2 a3 h3 a4 h4 a5 h5 a6 h6 hc x0 x1 = k0_pay10 x0 x1 (k0_pay4 (F := F)) := by
  unfold out0_A_5
  rw [View.read_writes_eq_canon _ _ _ (cover0_A_5 c i a1 h1 a2 h2 a3 h3 a4 h4 a5 h5 a6 h6 hc x0 x1)]
  unfold kernelRun0_A
  dsimp only
  sl_unfold_words
  rw [View.canon_cons_unit_zero (S := S16x512) hz, View.readCov_unit_zero (S := S16x512) _ hz]
  simp only [View.readAt_eq_ld, h1.read_unread, h2.read_unread, View.ld_unit_zero (S := S2048x512) hz,
    View.ld_unit_zero (S := S2048x16) hz]

end Pieces

section Payloads

/-! ## The body's arithmetic at an index, over the extended reals -/

/-- The operand indices of the body's two products, axis by axis: both operands are contracted along their rows (axis 0);
    the membership tile's column is the result's scene, the batch tile's column is the result's column. -/
theorem lhs_dd_0 (i : S16x512.Idx) (q : dot_S2048x16_S2048x512_S16x512_0_0_1_1_n_n.contr.Idx) :
    (dot_S2048x16_S2048x512_S16x512_0_0_1_1_n_n.lhsIdx i q 0).val = (q ⟨0, by decide⟩).val :=
  dot_S2048x16_S2048x512_S16x512_0_0_1_1_n_n.lhsIdx_val_of_single rfl i q
theorem lhs_dd_1 (i : S16x512.Idx) (q : dot_S2048x16_S2048x512_S16x512_0_0_1_1_n_n.contr.Idx) :
    (dot_S2048x16_S2048x512_S16x512_0_0_1_1_n_n.lhsIdx i q 1).val = (i 0).val := by
  unfold DotDims.lhsIdx
  rw [dif_neg (show ¬(1 : Fin S2048x16.rank) ∈ dot_S2048x16_S2048x512_S16x512_0_0_1_1_n_n.lhsBatch by decide), dif_pos (show (1 : Fin S2048x16.rank) ∈ dot_S2048x16_S2048x512_S16x512_0_0_1_1_n_n.lhsNonContracting by decide)]
  rfl
theorem rhs_dd_0 (i : S16x512.Idx) (q : dot_S2048x16_S2048x512_S16x512_0_0_1_1_n_n.contr.Idx) :
    (dot_S2048x16_S2048x512_S16x512_0_0_1_1_n_n.rhsIdx i q 0).val = (q ⟨0, by decide⟩).val :=
  dot_S2048x16_S2048x512_S16x512_0_0_1_1_n_n.rhsIdx_val_of_single rfl i q
theorem rhs_dd_1 (i : S16x512.Idx) (q : dot_S2048x16_S2048x512_S16x512_0_0_1_1_n_n.contr.Idx) :
    (dot_S2048x16_S2048x512_S16x512_0_0_1_1_n_n.rhsIdx i q 1).val = (i 1).val := by
  unfold DotDims.rhsIdx
  rw [dif_neg (show ¬(1 : Fin S2048x512.rank) ∈ dot_S2048x16_S2048x512_S16x512_0_0_1_1_n_n.rhsBatch by decide), dif_pos (show (1 : Fin S2048x512.rank) ∈ dot_S2048x16_S2048x512_S16x512_0_0_1_1_n_n.rhsNonContracting by decide)]
  rfl

/-- The product into the zero block, at scene `s` and column `d`: the sum over the tile's rows of membership times value. -/
theorem mm_apply (mk : FVec Ideal S2048x16 .f32) (x : FVec Ideal S2048x512 .f32) (s : Fin 16) (d : Fin 512) :
    matmul (F := Ideal) dot_S2048x16_S2048x512_S16x512_0_0_1_1_n_n (some .fp32) mk x (constant (F := Ideal) S16x512 .f32 0x00000000#32) (ix2 s d)
      = ∑ r : Fin 2048, mk (ix2 r s) * x (ix2 r d) := by
  simp only [matmul]
  rw [Ideal.matmul_constant_zero_apply, ← Equiv.sum_comp (contrEquiv1 dot_S2048x16_S2048x512_S16x512_0_0_1_1_n_n 2048 rfl rfl).symm]
  refine Finset.sum_congr rfl fun k _ => ?_
  have hk := contrEquiv1_symm_val dot_S2048x16_S2048x512_S16x512_0_0_1_1_n_n 2048 rfl rfl k
  have el : dot_S2048x16_S2048x512_S16x512_0_0_1_1_n_n.lhsIdx (ix2 s d) ((contrEquiv1 dot_S2048x16_S2048x512_S16x512_0_0_1_1_n_n 2048 rfl rfl).symm k) = ix2 k s := funext fun a => Fin.ext (by
    match a with
    | ⟨0, _⟩ => exact (lhs_dd_0 _ _).trans hk
    | ⟨1, _⟩ => exact lhs_dd_1 _ _)
  have er : dot_S2048x16_S2048x512_S16x512_0_0_1_1_n_n.rhsIdx (ix2 s d) ((contrEquiv1 dot_S2048x16_S2048x512_S16x512_0_0_1_1_n_n 2048 rfl rfl).symm k) = ix2 k d := funext fun a => Fin.ext (by
    match a with
    | ⟨0, _⟩ => exact (rhs_dd_0 _ _).trans hk
    | ⟨1, _⟩ => exact rhs_dd_1 _ _)
  rw [el, er]

/-- A tile summed over its 2048 rows, at column `d`. -/
theorem rowsum_apply (x : FVec Ideal S2048x512 .f32) (hφ : FKind.Formats .f32)
    (hacc : (0x00000000#32 : BitVec 32) = FKind.add.neutral .f32 hφ) (d : Fin 512) :
    multiReduction (F := Ideal) .add [0] S512 x 0x00000000#32 reduces_S2048x512_S512 hφ hacc (ix1 d) = ∑ r : Fin 2048, x (ix2 r d) := by
  refine (Ideal.multiReduction_add_single x 0x00000000#32 reduces_S2048x512_S512 hφ hacc (ix1 d)).trans ?_
  exact Finset.sum_congr rfl fun r _ => congrArg x (funext fun a => Fin.ext (by match a with | ⟨0, _⟩ => rfl | ⟨1, _⟩ => rfl))

/-- The four reset blocks are zero everywhere. -/
theorem pay1_apply (j : S1x512.Idx) : k0_pay1 (F := Ideal) j = 0 := Ideal.ofBits_zero_f32
theorem pay2_apply (j : S1x512.Idx) : k0_pay2 (F := Ideal) j = 0 := Ideal.ofBits_zero_f32
theorem pay3_apply (j : S16x512.Idx) : k0_pay3 (F := Ideal) j = 0 := Ideal.ofBits_zero_f32
theorem pay4_apply (j : S16x512.Idx) : k0_pay4 (F := Ideal) j = 0 := Ideal.ofBits_zero_f32

/-- The column-sum update: the accumulator plus the tile's column sum. -/
theorem pay7_apply (x : Vec Ideal S2048x512 .f32) (acc : Vec Ideal S1x512 .f32) (d : Fin 512) :
    k0_pay7 (F := Ideal) x acc (ix2 0 d) = acc (ix2 0 d) + ∑ r : Fin 2048, x (ix2 r d) := by
  unfold k0_pay7
  show shapeCast S1x512 acc shapeCasts_S1x512_S1x512 (ix2 0 d)
    + shapeCast S1x512 (multiReduction (F := Ideal) .add [0] S512 x 0x00000000#32 reduces_S2048x512_S512 (.inl rfl) rfl) shapeCasts_S512_S1x512 (ix2 0 d) = _
  rw [shapeCast_self]
  refine congrArg (acc (ix2 0 d) + ·) ?_
  refine (shapeCast_a_1a_apply _ shapeCasts_S512_S1x512 0 d).trans ?_
  exact rowsum_apply x _ _ d

/-- The squared column-sum update. -/
theorem pay8_apply (x : Vec Ideal S2048x512 .f32) (acc : Vec Ideal S1x512 .f32) (d : Fin 512) :
    k0_pay8 (F := Ideal) x acc (ix2 0 d) = acc (ix2 0 d) + ∑ r : Fin 2048, x (ix2 r d) * x (ix2 r d) := by
  unfold k0_pay8
  show shapeCast S1x512 acc shapeCasts_S1x512_S1x512 (ix2 0 d)
    + shapeCast S1x512 (multiReduction (F := Ideal) .add [0] S512 (k0_pay6 x) 0x00000000#32 reduces_S2048x512_S512 (.inl rfl) rfl) shapeCasts_S512_S1x512 (ix2 0 d) = _
  rw [shapeCast_self]
  refine congrArg (acc (ix2 0 d) + ·) ?_
  refine (shapeCast_a_1a_apply _ shapeCasts_S512_S1x512 0 d).trans ?_
  exact rowsum_apply (k0_pay6 x) _ _ d

/-- The per-scene update: the accumulator plus, over the tile's rows, membership times value. -/
theorem pay9_apply (x : Vec Ideal S2048x512 .f32) (mk : Vec Ideal S2048x16 .f32) (acc : Vec Ideal S16x512 .f32) (s : Fin 16) (d : Fin 512) :
    k0_pay9 (F := Ideal) x mk acc (ix2 s d) = acc (ix2 s d) + ∑ r : Fin 2048, mk (ix2 r s) * x (ix2 r d) := by
  unfold k0_pay9 k0_pay5
  show shapeCast S16x512 acc shapeCasts_S16x512_S16x512 (ix2 s d)
    + matmul (F := Ideal) dot_S2048x16_S2048x512_S16x512_0_0_1_1_n_n (some .fp32) (shapeCast S2048x16 mk shapeCasts_S2048x16_S2048x16) x (constant (F := Ideal) S16x512 .f32 0x00000000#32) (ix2 s d) = _
  rw [shapeCast_self, shapeCast_self]
  exact congrArg (acc (ix2 s d) + ·) (mm_apply mk x s d)

/-- The per-scene squared update. -/
theorem pay10_apply (x : Vec Ideal S2048x512 .f32) (mk : Vec Ideal S2048x16 .f32) (acc : Vec Ideal S16x512 .f32) (s : Fin 16) (d : Fin 512) :
    k0_pay10 (F := Ideal) x mk acc (ix2 s d) = acc (ix2 s d) + ∑ r : Fin 2048, mk (ix2 r s) * (x (ix2 r d) * x (ix2 r d)) := by
  unfold k0_pay10 k0_pay5
  show shapeCast S16x512 acc shapeCasts_S16x512_S16x512 (ix2 s d)
    + matmul (F := Ideal) dot_S2048x16_S2048x512_S16x512_0_0_1_1_n_n (some .fp32) (shapeCast S2048x16 mk shapeCasts_S2048x16_S2048x16) (k0_pay6 x) (constant (F := Ideal) S16x512 .f32 0x00000000#32) (ix2 s d) = _
  rw [shapeCast_self, shapeCast_self]
  exact congrArg (acc (ix2 s d) + ·) (mm_apply mk (k0_pay6 x) s d)

end Payloads

variable (V : (c : Dev nD) → (b : Ref sig .tc) → Buf (Elt Ideal) ((c : Thread nD τ).loc b))

/-- The region's two input arrays as it finds them: the batch, and the membership table (row `b`, column `s`: is row `b` in scene `s`). -/
abbrev xin (c : Dev nD) : FVec Ideal S16384x512 .f32 := V c (Pipeline.arrRef spec0 0)
abbrev memb (c : Dev nD) : FVec Ideal S16384x16 .f32 := V c (Pipeline.arrRef spec0 1)

section Blocks

/-- The batch tile and the membership tile at point `t`, at their literal types. -/
abbrev xblk (c : Dev nD) (t : Fin cfg0.N) : Vec Ideal S2048x512 .f32 := iblk0 V c 0 t
abbrev mblk (c : Dev nD) (t : Fin cfg0.N) : Vec Ideal S2048x16 .f32 := iblk0 V c 1 t

/-- At every point both input windows sit at block `(t, 0)`: decided once over the eight points. -/
theorem idx_facts : ∀ t : Fin cfg0.N, win0_0.index t 0 = t.val ∧ win0_0.index t 1 = 0 ∧ win0_1.index t 0 = t.val ∧ win0_1.index t 1 = 0 :=
  (by decide +kernel : ∀ t : Fin grid0.N, win0_0.index t 0 = t.val ∧ win0_0.index t 1 = 0 ∧ win0_1.index t 0 = t.val ∧ win0_1.index t 1 = 0)

/-- Row `r` of the batch tile at point `t` is row `2048·t + r` of the batch. -/
theorem xblk_apply (c : Dev nD) (t : Fin cfg0.N) (r : Fin 2048) (d : Fin 512) (hlt : 2048 * t.val + r.val < 16384) :
    xblk V c t (ix2 r d) = xin V c (ix2 ⟨2048 * t.val + r.val, hlt⟩ d) := by
  unfold xblk iblk0
  rw [View.read_apply]
  show xin V c (((cfg0.win 0).blk t).view.emb (ix2 r d)) = _
  refine congrArg (xin V c) (funext fun a => Fin.ext ?_)
  have hi := idx_facts t
  match a with
  | ⟨0, _⟩ => show win0_0.index t 0 * 2048 + 1 * r.val = 2048 * t.val + r.val; rw [hi.1]; omega
  | ⟨1, _⟩ => show win0_0.index t 1 * 512 + 1 * d.val = d.val; rw [hi.2.1]; omega

/-- Row `r` of the membership tile at point `t` is row `2048·t + r` of the membership table. -/
theorem mblk_apply (c : Dev nD) (t : Fin cfg0.N) (r : Fin 2048) (s : Fin 16) (hlt : 2048 * t.val + r.val < 16384) :
    mblk V c t (ix2 r s) = memb V c (ix2 ⟨2048 * t.val + r.val, hlt⟩ s) := by
  unfold mblk iblk0
  rw [View.read_apply]
  show memb V c (((cfg0.win 1).blk t).view.emb (ix2 r s)) = _
  refine congrArg (memb V c) (funext fun a => Fin.ext ?_)
  have hi := idx_facts t
  match a with
  | ⟨0, _⟩ => show win0_1.index t 0 * 2048 + 1 * r.val = 2048 * t.val + r.val; rw [hi.2.2.1]; omega
  | ⟨1, _⟩ => show win0_1.index t 1 * 16 + 1 * s.val = s.val; rw [hi.2.2.2]; omega

end Blocks

section Accumulation
open Cert.Moments (ext0 ext0_of_lt sum_range_ext0 sum_range_tile)

/-- One tile more: if `a` is the sum of `f` over the rows below `2048·m` and `g` lists tile `m`'s rows of `f`, then
    `a + Σ g` is the sum over the rows below `2048·(m+1)`. -/
theorem tile_step (f : Fin 16384 → EReal) (m : ℕ) (hm : m < 8) (g : Fin 2048 → EReal)
    (hg : ∀ (r : Fin 2048) (hlt : 2048 * m + r.val < 16384), g r = f ⟨2048 * m + r.val, hlt⟩) (a : EReal)
    (ha : a = ∑ k ∈ Finset.range (2048 * m), ext0 f k) :
    a + ∑ r, g r = ∑ k ∈ Finset.range (2048 * (m + 1)), ext0 f k := by
  rw [sum_range_tile (ext0 f) 2048 m, ha]
  refine congrArg (_ + ·) (Finset.sum_congr rfl fun r _ => ?_)
  have hlt : 2048 * m + r.val < 16384 := by have := r.isLt; omega
  rw [ext0_of_lt f hlt]
  exact hg r hlt

/-- The first tile, onto a zero accumulator. -/
theorem tile_first (f : Fin 16384 → EReal) (g : Fin 2048 → EReal)
    (hg : ∀ (r : Fin 2048) (hlt : 2048 * 0 + r.val < 16384), g r = f ⟨2048 * 0 + r.val, hlt⟩) :
    (0 : EReal) + ∑ r, g r = ∑ k ∈ Finset.range (2048 * (0 + 1)), ext0 f k :=
  tile_step f 0 (by decide) g hg 0 (by rw [Nat.mul_zero, Finset.range_zero, Finset.sum_empty])

/-- Column `d` of the batch and of its squares, and the two weighted by scene `s`'s membership column, as functions of the row. -/
abbrev col (c : Dev nD) (d : Fin 512) : Fin 16384 → EReal := fun b => xin V c (ix2 b d)
abbrev colsq (c : Dev nD) (d : Fin 512) : Fin 16384 → EReal := fun b => xin V c (ix2 b d) * xin V c (ix2 b d)
abbrev scol (c : Dev nD) (s : Fin 16) (d : Fin 512) : Fin 16384 → EReal := fun b => memb V c (ix2 b s) * xin V c (ix2 b d)
abbrev scolsq (c : Dev nD) (s : Fin 16) (d : Fin 512) : Fin 16384 → EReal :=
  fun b => memb V c (ix2 b s) * (xin V c (ix2 b d) * xin V c (ix2 b d))

/-- THE ACCUMULATION, CLOSED. After point `n` the four staging buffers hold the four sums over the rows below `2048·(n+1)`:
    point 0 adds its tile to the zero blocks, every later point adds its tile to what the point before left. -/
theorem outsAt_eq (c : Dev nD) : ∀ (n : ℕ) (h : n < cfg0.N),
    (∀ d : Fin 512, (outsAt0 V c n h).1 (ix2 0 d) = ∑ k ∈ Finset.range (2048 * (n + 1)), ext0 (col V c d) k)
    ∧ (∀ d : Fin 512, (outsAt0 V c n h).2.1 (ix2 0 d) = ∑ k ∈ Finset.range (2048 * (n + 1)), ext0 (colsq V c d) k)
    ∧ (∀ (s : Fin 16) (d : Fin 512), (outsAt0 V c n h).2.2.1 (ix2 s d) = ∑ k ∈ Finset.range (2048 * (n + 1)), ext0 (scol V c s d) k)
    ∧ (∀ (s : Fin 16) (d : Fin 512), (outsAt0 V c n h).2.2.2 (ix2 s d) = ∑ k ∈ Finset.range (2048 * (n + 1)), ext0 (scolsq V c s d) k)
  | 0, h => by
    rw [outsAt0_A V c ⟨0, h⟩ rfl]
    dsimp only
    refine ⟨fun d => ?_, fun d => ?_, fun s d => ?_, fun s d => ?_⟩
    · refine (congrFun (out_A_2 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr (Nat.zero_mod _)) (xblk V c ⟨0, h⟩) (mblk V c ⟨0, h⟩)) (ix2 0 d)).trans ?_
      refine (pay7_apply (xblk V c ⟨0, h⟩) (k0_pay1 (F := Ideal)) d).trans ?_
      rw [pay1_apply]
      exact tile_first (col V c d) (fun r => xblk V c ⟨0, h⟩ (ix2 r d)) (fun r hlt => xblk_apply V c ⟨0, h⟩ r d hlt)
    · refine (congrFun (out_A_3 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr (Nat.zero_mod _)) (xblk V c ⟨0, h⟩) (mblk V c ⟨0, h⟩)) (ix2 0 d)).trans ?_
      refine (pay8_apply (xblk V c ⟨0, h⟩) (k0_pay2 (F := Ideal)) d).trans ?_
      rw [pay2_apply]
      exact tile_first (colsq V c d) (fun r => xblk V c ⟨0, h⟩ (ix2 r d) * xblk V c ⟨0, h⟩ (ix2 r d))
        (fun r hlt => by rw [xblk_apply V c ⟨0, h⟩ r d hlt])
    · refine (congrFun (out_A_4 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr (Nat.zero_mod _)) (xblk V c ⟨0, h⟩) (mblk V c ⟨0, h⟩)) (ix2 s d)).trans ?_
      refine (pay9_apply (xblk V c ⟨0, h⟩) (mblk V c ⟨0, h⟩) (k0_pay3 (F := Ideal)) s d).trans ?_
      rw [pay3_apply]
      exact tile_first (scol V c s d) (fun r => mblk V c ⟨0, h⟩ (ix2 r s) * xblk V c ⟨0, h⟩ (ix2 r d))
        (fun r hlt => by rw [xblk_apply V c ⟨0, h⟩ r d hlt, mblk_apply V c ⟨0, h⟩ r s hlt])
    · refine (congrFun (out_A_5 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr (Nat.zero_mod _)) (xblk V c ⟨0, h⟩) (mblk V c ⟨0, h⟩)) (ix2 s d)).trans ?_
      refine (pay10_apply (xblk V c ⟨0, h⟩) (mblk V c ⟨0, h⟩) (k0_pay4 (F := Ideal)) s d).trans ?_
      rw [pay4_apply]
      exact tile_first (scolsq V c s d) (fun r => mblk V c ⟨0, h⟩ (ix2 r s) * (xblk V c ⟨0, h⟩ (ix2 r d) * xblk V c ⟨0, h⟩ (ix2 r d)))
        (fun r hlt => by rw [xblk_apply V c ⟨0, h⟩ r d hlt, mblk_apply V c ⟨0, h⟩ r s hlt])
  | n + 1, h => by
    have hN : cfg0.N = 8 := N_0
    have hm : n + 1 < 8 := lt_of_lt_of_eq h hN
    have hB : ¬(⟨n + 1, h⟩ : Fin cfg0.N).val % 8 = 0 := by dsimp only; omega
    have hn : n < cfg0.N := Nat.lt_of_succ_lt h
    have ih := outsAt_eq c n hn
    rw [outsAt0_B V c ⟨n + 1, h⟩ hB]
    dsimp only
    refine ⟨fun d => ?_, fun d => ?_, fun s d => ?_, fun s d => ?_⟩
    · refine (congrFun (out_B_2 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => hB ((hcond0_0 ⟨n + 1, h⟩).mp hh)) (xblk V c ⟨n + 1, h⟩) (mblk V c ⟨n + 1, h⟩)
        (outsAt0 V c n hn).1 (outsAt0 V c n hn).2.1 (outsAt0 V c n hn).2.2.1 (outsAt0 V c n hn).2.2.2) (ix2 0 d)).trans ?_
      refine (pay7_apply (xblk V c ⟨n + 1, h⟩) (outsAt0 V c n hn).1 d).trans ?_
      exact tile_step (col V c d) (n + 1) hm (fun r => xblk V c ⟨n + 1, h⟩ (ix2 r d)) (fun r hlt => xblk_apply V c ⟨n + 1, h⟩ r d hlt) _ (ih.1 d)
    · refine (congrFun (out_B_3 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => hB ((hcond0_0 ⟨n + 1, h⟩).mp hh)) (xblk V c ⟨n + 1, h⟩) (mblk V c ⟨n + 1, h⟩)
        (outsAt0 V c n hn).1 (outsAt0 V c n hn).2.1 (outsAt0 V c n hn).2.2.1 (outsAt0 V c n hn).2.2.2) (ix2 0 d)).trans ?_
      refine (pay8_apply (xblk V c ⟨n + 1, h⟩) (outsAt0 V c n hn).2.1 d).trans ?_
      exact tile_step (colsq V c d) (n + 1) hm (fun r => xblk V c ⟨n + 1, h⟩ (ix2 r d) * xblk V c ⟨n + 1, h⟩ (ix2 r d))
        (fun r hlt => by rw [xblk_apply V c ⟨n + 1, h⟩ r d hlt]) _ (ih.2.1 d)
    · refine (congrFun (out_B_4 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => hB ((hcond0_0 ⟨n + 1, h⟩).mp hh)) (xblk V c ⟨n + 1, h⟩) (mblk V c ⟨n + 1, h⟩)
        (outsAt0 V c n hn).1 (outsAt0 V c n hn).2.1 (outsAt0 V c n hn).2.2.1 (outsAt0 V c n hn).2.2.2) (ix2 s d)).trans ?_
      refine (pay9_apply (xblk V c ⟨n + 1, h⟩) (mblk V c ⟨n + 1, h⟩) (outsAt0 V c n hn).2.2.1 s d).trans ?_
      exact tile_step (scol V c s d) (n + 1) hm (fun r => mblk V c ⟨n + 1, h⟩ (ix2 r s) * xblk V c ⟨n + 1, h⟩ (ix2 r d))
        (fun r hlt => by rw [xblk_apply V c ⟨n + 1, h⟩ r d hlt, mblk_apply V c ⟨n + 1, h⟩ r s hlt]) _ (ih.2.2.1 s d)
    · refine (congrFun (out_B_5 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => hB ((hcond0_0 ⟨n + 1, h⟩).mp hh)) (xblk V c ⟨n + 1, h⟩) (mblk V c ⟨n + 1, h⟩)
        (outsAt0 V c n hn).1 (outsAt0 V c n hn).2.1 (outsAt0 V c n hn).2.2.1 (outsAt0 V c n hn).2.2.2) (ix2 s d)).trans ?_
      refine (pay10_apply (xblk V c ⟨n + 1, h⟩) (mblk V c ⟨n + 1, h⟩) (outsAt0 V c n hn).2.2.2 s d).trans ?_
      exact tile_step (scolsq V c s d) (n + 1) hm (fun r => mblk V c ⟨n + 1, h⟩ (ix2 r s) * (xblk V c ⟨n + 1, h⟩ (ix2 r d) * xblk V c ⟨n + 1, h⟩ (ix2 r d)))
        (fun r hlt => by rw [xblk_apply V c ⟨n + 1, h⟩ r d hlt, mblk_apply V c ⟨n + 1, h⟩ r s hlt]) _ (ih.2.2.2 s d)

end Accumulation

section Final
open Cert.Moments (ext0 sum_range_ext0)

/-- The last of the eight points. -/
theorem last_lt : 7 < cfg0.N := by rw [show cfg0.N = 8 from N_0]; decide

/-- What output 2's staging buffer holds after the last point, as contents of its array (the array is one block). -/
abbrev res2 (c : Dev nD) : Buf (Elt Ideal) ((c : Thread nD τ).loc main_v8_0) := (outsAt0 V c 7 last_lt).1

/-- Output 2's one write-back, at the last point, writes that: block (0, 0) of the array read through zero offsets is the array. -/
theorem flushed_eq_2 (c : Dev nD) (t : Fin cfg0.N) (hf : (cfg0.win 2).flush t = true) :
    (dat0 V c).flushed 2 t = ((cfg0.win 2).blk t).view.read (Elt Ideal) (res2 V c) := by
  have hN : cfg0.N = 8 := N_0
  have h7 : t.val = 7 := by have := (flush0_2 t).mp hf; have := t.isLt; omega
  obtain rfl : t = t0_7 := Fin.ext h7
  show (cfg0.win 2).cut (grid0.coords t0_7) ((dat0 V c).after 2 t0_7) = _
  rw [after0_2]
  have hz' : (fun a => win0_2.index t0_7 a * main_v8_0.ty.shape.size a) = fun _ => 0 := funext fun a => by fin_cases a <;> decide
  exact (Memref.read_access_unit_zero (Elt Ideal) main_v8_0 hz' (fun a => by rw [congrFun hz' a]; simp) (res2 V c)).symm

/-- So array 2 ends holding it: the last point's block covers the array. -/
theorem final_2 (c : Dev nD) : (dat0 V c).arrAt 2 cfg0.N = res2 V c :=
  (dat0 V c).arrAt_eq_of_cover 2 (res2 V c) (flushed_eq_2 V c) fun i =>
    ⟨t0_7, (flush0_2 t0_7).mpr rfl, by
      show i ∈ ((View.whole main_v8_0).slice (win0_2.rect t0_7)).set
      rw [View.set_slice_whole, Rect.mem_set_unit]
      intro a
      have h0 : (i 0 : Nat) < 1 := (i 0).isLt
      have h1 : (i 1 : Nat) < 512 := (i 1).isLt
      match a with
      | ⟨0, _⟩ => show win0_2.index t0_7 0 * win0_2.size 0 ≤ (i 0 : Nat) ∧ (i 0 : Nat) < win0_2.index t0_7 0 * win0_2.size 0 + win0_2.xsize (grid0.coords t0_7) 0
                  rw [show win0_2.index t0_7 0 * win0_2.size 0 = 0 from by decide +kernel, show win0_2.xsize (grid0.coords t0_7) 0 = 1 from by decide +kernel]; omega
      | ⟨1, _⟩ => show win0_2.index t0_7 1 * win0_2.size 1 ≤ (i 1 : Nat) ∧ (i 1 : Nat) < win0_2.index t0_7 1 * win0_2.size 1 + win0_2.xsize (grid0.coords t0_7) 1
                  rw [show win0_2.index t0_7 1 * win0_2.size 1 = 0 from by decide +kernel, show win0_2.xsize (grid0.coords t0_7) 1 = 512 from by decide +kernel]; omega⟩

/-- What output 3's staging buffer holds after the last point, as contents of its array (the array is one block). -/
abbrev res3 (c : Dev nD) : Buf (Elt Ideal) ((c : Thread nD τ).loc main_v8_1) := (outsAt0 V c 7 last_lt).2.1

/-- Output 3's one write-back, at the last point, writes that: block (0, 0) of the array read through zero offsets is the array. -/
theorem flushed_eq_3 (c : Dev nD) (t : Fin cfg0.N) (hf : (cfg0.win 3).flush t = true) :
    (dat0 V c).flushed 3 t = ((cfg0.win 3).blk t).view.read (Elt Ideal) (res3 V c) := by
  have hN : cfg0.N = 8 := N_0
  have h7 : t.val = 7 := by have := (flush0_3 t).mp hf; have := t.isLt; omega
  obtain rfl : t = t0_7 := Fin.ext h7
  show (cfg0.win 3).cut (grid0.coords t0_7) ((dat0 V c).after 3 t0_7) = _
  rw [after0_3]
  have hz' : (fun a => win0_3.index t0_7 a * main_v8_1.ty.shape.size a) = fun _ => 0 := funext fun a => by fin_cases a <;> decide
  exact (Memref.read_access_unit_zero (Elt Ideal) main_v8_1 hz' (fun a => by rw [congrFun hz' a]; simp) (res3 V c)).symm

/-- So array 3 ends holding it: the last point's block covers the array. -/
theorem final_3 (c : Dev nD) : (dat0 V c).arrAt 3 cfg0.N = res3 V c :=
  (dat0 V c).arrAt_eq_of_cover 3 (res3 V c) (flushed_eq_3 V c) fun i =>
    ⟨t0_7, (flush0_3 t0_7).mpr rfl, by
      show i ∈ ((View.whole main_v8_1).slice (win0_3.rect t0_7)).set
      rw [View.set_slice_whole, Rect.mem_set_unit]
      intro a
      have h0 : (i 0 : Nat) < 1 := (i 0).isLt
      have h1 : (i 1 : Nat) < 512 := (i 1).isLt
      match a with
      | ⟨0, _⟩ => show win0_3.index t0_7 0 * win0_3.size 0 ≤ (i 0 : Nat) ∧ (i 0 : Nat) < win0_3.index t0_7 0 * win0_3.size 0 + win0_3.xsize (grid0.coords t0_7) 0
                  rw [show win0_3.index t0_7 0 * win0_3.size 0 = 0 from by decide +kernel, show win0_3.xsize (grid0.coords t0_7) 0 = 1 from by decide +kernel]; omega
      | ⟨1, _⟩ => show win0_3.index t0_7 1 * win0_3.size 1 ≤ (i 1 : Nat) ∧ (i 1 : Nat) < win0_3.index t0_7 1 * win0_3.size 1 + win0_3.xsize (grid0.coords t0_7) 1
                  rw [show win0_3.index t0_7 1 * win0_3.size 1 = 0 from by decide +kernel, show win0_3.xsize (grid0.coords t0_7) 1 = 512 from by decide +kernel]; omega⟩

/-- What output 4's staging buffer holds after the last point, as contents of its array (the array is one block). -/
abbrev res4 (c : Dev nD) : Buf (Elt Ideal) ((c : Thread nD τ).loc main_v8_2) := (outsAt0 V c 7 last_lt).2.2.1

/-- Output 4's one write-back, at the last point, writes that: block (0, 0) of the array read through zero offsets is the array. -/
theorem flushed_eq_4 (c : Dev nD) (t : Fin cfg0.N) (hf : (cfg0.win 4).flush t = true) :
    (dat0 V c).flushed 4 t = ((cfg0.win 4).blk t).view.read (Elt Ideal) (res4 V c) := by
  have hN : cfg0.N = 8 := N_0
  have h7 : t.val = 7 := by have := (flush0_4 t).mp hf; have := t.isLt; omega
  obtain rfl : t = t0_7 := Fin.ext h7
  show (cfg0.win 4).cut (grid0.coords t0_7) ((dat0 V c).after 4 t0_7) = _
  rw [after0_4]
  have hz' : (fun a => win0_4.index t0_7 a * main_v8_2.ty.shape.size a) = fun _ => 0 := funext fun a => by fin_cases a <;> decide
  exact (Memref.read_access_unit_zero (Elt Ideal) main_v8_2 hz' (fun a => by rw [congrFun hz' a]; simp) (res4 V c)).symm

/-- So array 4 ends holding it: the last point's block covers the array. -/
theorem final_4 (c : Dev nD) : (dat0 V c).arrAt 4 cfg0.N = res4 V c :=
  (dat0 V c).arrAt_eq_of_cover 4 (res4 V c) (flushed_eq_4 V c) fun i =>
    ⟨t0_7, (flush0_4 t0_7).mpr rfl, by
      show i ∈ ((View.whole main_v8_2).slice (win0_4.rect t0_7)).set
      rw [View.set_slice_whole, Rect.mem_set_unit]
      intro a
      have h0 : (i 0 : Nat) < 16 := (i 0).isLt
      have h1 : (i 1 : Nat) < 512 := (i 1).isLt
      match a with
      | ⟨0, _⟩ => show win0_4.index t0_7 0 * win0_4.size 0 ≤ (i 0 : Nat) ∧ (i 0 : Nat) < win0_4.index t0_7 0 * win0_4.size 0 + win0_4.xsize (grid0.coords t0_7) 0
                  rw [show win0_4.index t0_7 0 * win0_4.size 0 = 0 from by decide +kernel, show win0_4.xsize (grid0.coords t0_7) 0 = 16 from by decide +kernel]; omega
      | ⟨1, _⟩ => show win0_4.index t0_7 1 * win0_4.size 1 ≤ (i 1 : Nat) ∧ (i 1 : Nat) < win0_4.index t0_7 1 * win0_4.size 1 + win0_4.xsize (grid0.coords t0_7) 1
                  rw [show win0_4.index t0_7 1 * win0_4.size 1 = 0 from by decide +kernel, show win0_4.xsize (grid0.coords t0_7) 1 = 512 from by decide +kernel]; omega⟩

/-- What output 5's staging buffer holds after the last point, as contents of its array (the array is one block). -/
abbrev res5 (c : Dev nD) : Buf (Elt Ideal) ((c : Thread nD τ).loc main_v8_3) := (outsAt0 V c 7 last_lt).2.2.2

/-- Output 5's one write-back, at the last point, writes that: block (0, 0) of the array read through zero offsets is the array. -/
theorem flushed_eq_5 (c : Dev nD) (t : Fin cfg0.N) (hf : (cfg0.win 5).flush t = true) :
    (dat0 V c).flushed 5 t = ((cfg0.win 5).blk t).view.read (Elt Ideal) (res5 V c) := by
  have hN : cfg0.N = 8 := N_0
  have h7 : t.val = 7 := by have := (flush0_5 t).mp hf; have := t.isLt; omega
  obtain rfl : t = t0_7 := Fin.ext h7
  show (cfg0.win 5).cut (grid0.coords t0_7) ((dat0 V c).after 5 t0_7) = _
  rw [after0_5]
  have hz' : (fun a => win0_5.index t0_7 a * main_v8_3.ty.shape.size a) = fun _ => 0 := funext fun a => by fin_cases a <;> decide
  exact (Memref.read_access_unit_zero (Elt Ideal) main_v8_3 hz' (fun a => by rw [congrFun hz' a]; simp) (res5 V c)).symm

/-- So array 5 ends holding it: the last point's block covers the array. -/
theorem final_5 (c : Dev nD) : (dat0 V c).arrAt 5 cfg0.N = res5 V c :=
  (dat0 V c).arrAt_eq_of_cover 5 (res5 V c) (flushed_eq_5 V c) fun i =>
    ⟨t0_7, (flush0_5 t0_7).mpr rfl, by
      show i ∈ ((View.whole main_v8_3).slice (win0_5.rect t0_7)).set
      rw [View.set_slice_whole, Rect.mem_set_unit]
      intro a
      have h0 : (i 0 : Nat) < 16 := (i 0).isLt
      have h1 : (i 1 : Nat) < 512 := (i 1).isLt
      match a with
      | ⟨0, _⟩ => show win0_5.index t0_7 0 * win0_5.size 0 ≤ (i 0 : Nat) ∧ (i 0 : Nat) < win0_5.index t0_7 0 * win0_5.size 0 + win0_5.xsize (grid0.coords t0_7) 0
                  rw [show win0_5.index t0_7 0 * win0_5.size 0 = 0 from by decide +kernel, show win0_5.xsize (grid0.coords t0_7) 0 = 16 from by decide +kernel]; omega
      | ⟨1, _⟩ => show win0_5.index t0_7 1 * win0_5.size 1 ≤ (i 1 : Nat) ∧ (i 1 : Nat) < win0_5.index t0_7 1 * win0_5.size 1 + win0_5.xsize (grid0.coords t0_7) 1
                  rw [show win0_5.index t0_7 1 * win0_5.size 1 = 0 from by decide +kernel, show win0_5.xsize (grid0.coords t0_7) 1 = 512 from by decide +kernel]; omega⟩

end Final

/-- Output 2: the column sums of the batch. -/
theorem colsum_arr (c : Dev nD) (d : Fin 512) :
    ((dat0 V c).arrAt 2 cfg0.N : FVec Ideal S1x512 .f32) (ix2 0 d) = ∑ b : Fin 16384, xin V c (ix2 b d) :=
  (congrFun (final_2 V c) (ix2 0 d)).trans (((outsAt_eq V c 7 last_lt).1 d).trans (Cert.Moments.sum_range_ext0 (col V c d)))

/-- Output 3: the column sums of the squares. -/
theorem colsq_arr (c : Dev nD) (d : Fin 512) :
    ((dat0 V c).arrAt 3 cfg0.N : FVec Ideal S1x512 .f32) (ix2 0 d) = ∑ b : Fin 16384, xin V c (ix2 b d) * xin V c (ix2 b d) :=
  (congrFun (final_3 V c) (ix2 0 d)).trans (((outsAt_eq V c 7 last_lt).2.1 d).trans (Cert.Moments.sum_range_ext0 (colsq V c d)))

/-- Output 4: per scene, the column sums over the scene's rows. -/
theorem scsum_arr (c : Dev nD) (s : Fin 16) (d : Fin 512) :
    ((dat0 V c).arrAt 4 cfg0.N : FVec Ideal S16x512 .f32) (ix2 s d) = ∑ b : Fin 16384, memb V c (ix2 b s) * xin V c (ix2 b d) :=
  (congrFun (final_4 V c) (ix2 s d)).trans (((outsAt_eq V c 7 last_lt).2.2.1 s d).trans (Cert.Moments.sum_range_ext0 (scol V c s d)))

/-- Output 5: per scene, the column sums of the squares over the scene's rows. -/
theorem scsq_arr (c : Dev nD) (s : Fin 16) (d : Fin 512) :
    ((dat0 V c).arrAt 5 cfg0.N : FVec Ideal S16x512 .f32) (ix2 s d)
      = ∑ b : Fin 16384, memb V c (ix2 b s) * (xin V c (ix2 b d) * xin V c (ix2 b d)) :=
  (congrFun (final_5 V c) (ix2 s d)).trans (((outsAt_eq V c 7 last_lt).2.2.2 s d).trans (Cert.Moments.sum_range_ext0 (scolsq V c s d)))

end Cert.KernelIdeal.Stats

end
-- ==== Proof.Affine.lean ====
/-
  The second region: every output element is the normalised input element times its scene's scale plus its scene's offset.

  At grid point (row tile, scene s) the body takes a tile of 2048 batch rows, subtracts the batch mean, multiplies by the
  inverse deviation, and applies scene s's scale and offset, which it picks out of the two 16-row tables by summing each
  against the one-hot column (row q = s as 1.0 / 0.0). Read at an index this is the affine map below (the one-hot sum
  picks the row on all of the extended reals), each point writes its block of ONE whole-array function, and the 128
  blocks tile the output: scene s, batch row b is written by point 16 · (b / 2048) + s.
-/
import proofs.«127924_j88785563943272_1_alg».proof.Proof.FrameIdeal
import proofs.«127924_j88785563943272_1_alg».proof.Proof.Moments
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Affine

open Cert.KernelIdeal Cert.KernelIdeal.Gen Cert.KernelIdeal.GenP

/-! ## The one-hot column -/

/-- Comparing two scene numbers below 16 as 32-bit words compares the numbers. -/
theorem cmp_scene : ∀ q s : Fin 16, IntOp.cmpi .eq (BitVec.ofNat 32 q.val) (BitVec.ofNat 32 s.val) = if q = s then 1#1 else 0#1 := by
  decide

/-- The one-hot column's entry: the one-bit comparison widened to a word and read as a signed integer is 1 or 0. -/
theorem sel_eq (q s : Fin 16) :
    FloatOps.sitofp (F := Ideal) .f32 ((IntOp.cmpi .eq (BitVec.ofNat 32 q.val) (BitVec.ofNat 32 s.val)).setWidth 32)
      = if q = s then (1 : EReal) else 0 := by
  rw [cmp_scene]
  by_cases h : q = s
  · rw [if_pos h, if_pos h]
    show (((1#1 : BitVec 1).setWidth 32).toInt : ℝ) = (1 : EReal)
    simp
  · rw [if_neg h, if_neg h]
    show (((0#1 : BitVec 1).setWidth 32).toInt : ℝ) = (0 : EReal)
    simp

/-- The reduced index with row `k` put back is `(k, d)`. -/
theorem lift_row (h : S16x512.Reduces [0] S512) (d : Fin 512) (k : Fin 16) : h.lift (ix1 d) k = ix2 k d := by
  funext a
  match a with
  | ⟨0, _⟩ => exact Fin.ext rfl
  | ⟨1, _⟩ => exact Fin.ext rfl

/-! ## The body's arithmetic at an index -/

/-- A 16-row table summed against the one-hot column of scene `s`, laid over the 2048 rows of a tile: at `(r, d)` it is
    the table's row `s` at `d`. -/
theorem row_pick (i : grid1.Coords) (s : Fin 16) (hs : (i 1).val = s.val) (tab : FVec Ideal S16x512 .f32)
    (hcc : S16x512.ShapeCasts S16x512) (hio : S16x512.Iotas .tc 32 [0]) (h132 : 1 < 32) (hred : S16x512.Reduces [0] S512)
    (hφ : FKind.Formats .f32) (hacc : (0x00000000#32 : BitVec 32) = FKind.add.neutral .f32 hφ)
    (hc1 : S512.ShapeCasts S1x512) (hb : S1x512.Broadcasts S2048x512) (r : Fin 2048) (d : Fin 512) :
    broadcastTo S2048x512 (shapeCast S1x512 (multiReduction .add [0] S512
        (mulf (shapeCast S16x512 tab hcc)
          (sitofp .f32 (extui 32 (cmpi .eq (iota .tc S16x512 32 [0] hio) (broadcast S16x512 (BitVec.ofNat 32 (i 1).val))) h132)))
        0x00000000#32 hred hφ hacc) hc1) hb (ix2 r d) = tab (ix2 s d) := by
  refine (broadcastTo_1b_ab_apply _ hb r d).trans ?_
  refine (shapeCast_a_1a_apply _ hc1 0 d).trans ?_
  refine (Ideal.multiReduction_add_single _ _ hred hφ hacc (ix1 d)).trans ?_
  refine Eq.trans ?_ (Cert.Moments.sum_mul_onehot (fun q : Fin 16 => tab (ix2 q d)) s)
  refine Finset.sum_congr rfl fun q _ => ?_
  rw [lift_row hred d q]
  refine (mulf_apply _ _ _).trans ?_
  refine congrArg₂ (· * ·) (congrFun (shapeCast_self tab hcc) _) ?_
  refine Eq.trans ?_ (sel_eq q s)
  show FloatOps.sitofp (F := Ideal) .f32 ((IntOp.cmpi .eq (iota .tc S16x512 32 [0] hio (ix2 q d)) (BitVec.ofNat 32 (i 1).val)).setWidth 32) = _
  rw [iota_single_apply, hs]

/-- One row laid over the 2048 rows of a tile: at `(r, d)` it is the row at `d`. -/
theorem row_bcast (v : FVec Ideal S1x512 .f32) (hcc : S1x512.ShapeCasts S1x512) (hb : S1x512.Broadcasts S2048x512)
    (r : Fin 2048) (d : Fin 512) :
    broadcastTo S2048x512 (shapeCast S1x512 v hcc) hb (ix2 r d) = v (ix2 0 d) := by
  rw [shapeCast_self]
  exact broadcastTo_1b_ab_apply v hb r d

/-- THE BODY'S RESULT AT AN INDEX: at scene `s`, row `r` of the tile and column `d`, the tile's element less the batch
    mean, times the inverse deviation, times the scene's scale, plus the scene's offset. -/
theorem pay_apply (i : grid1.Coords) (s : Fin 16) (hs : (i 1).val = s.val)
    (x : FVec Ideal S2048x512 .f32) (bm ist : FVec Ideal S1x512 .f32) (sc off : FVec Ideal S16x512 .f32)
    (u : Fin 1) (r : Fin 2048) (d : Fin 512) :
    k1_pay1 (F := Ideal) i x bm ist sc off (ix3 u r d)
      = (x (ix2 r d) - bm (ix2 0 d)) * ist (ix2 0 d) * sc (ix2 s d) + off (ix2 s d) := by
  unfold k1_pay1
  refine (shapeCast_ab_1ab_apply _ _ u r d).trans ?_
  refine (addf_apply _ _ _).trans ?_
  refine congrArg₂ (· + ·) ?_ (row_pick i s hs off _ _ _ _ _ _ _ _ r d)
  refine (mulf_apply _ _ _).trans ?_
  refine congrArg₂ (· * ·) ?_ (row_pick i s hs sc _ _ _ _ _ _ _ _ r d)
  refine (mulf_apply _ _ _).trans ?_
  refine congrArg₂ (· * ·) ?_ (row_bcast ist _ _ r d)
  refine (subf_apply _ _ _).trans ?_
  exact congrArg₂ (· - ·) rfl (row_bcast bm _ _ r d)

/-! ## What the output array ends holding -/

variable (V : (c : Dev nD) → (b : Ref sig .tc) → Buf (Elt Ideal) ((c : Thread nD τ).loc b))

/-- The region's five input arrays as it finds them, each at its literal type. -/
abbrev xin (c : Dev nD) : FVec Ideal S16384x512 .f32 := V c (Pipeline.arrRef spec1 0)
abbrev bmean (c : Dev nD) : FVec Ideal S1x512 .f32 := V c (Pipeline.arrRef spec1 1)
abbrev istd (c : Dev nD) : FVec Ideal S1x512 .f32 := V c (Pipeline.arrRef spec1 2)
abbrev scl (c : Dev nD) : FVec Ideal S16x512 .f32 := V c (Pipeline.arrRef spec1 3)
abbrev ofs (c : Dev nD) : FVec Ideal S16x512 .f32 := V c (Pipeline.arrRef spec1 4)

/-- The normalised batch under every scene's scale and offset: at scene `s`, batch row `b` and column `d`. -/
def affine (x : FVec Ideal S16384x512 .f32) (bm ist : FVec Ideal S1x512 .f32) (sc off : FVec Ideal S16x512 .f32) :
    FVec Ideal S16x16384x512 .f32 :=
  fun i => (x (ix2 (i 1) (i 2)) - bm (ix2 0 (i 2))) * ist (ix2 0 (i 2)) * sc (ix2 (i 0) (i 2)) + off (ix2 (i 0) (i 2))

/-- The map at an index given by its coordinates. -/
theorem affine_apply (x : FVec Ideal S16384x512 .f32) (bm ist : FVec Ideal S1x512 .f32) (sc off : FVec Ideal S16x512 .f32)
    (s : Fin 16) (b : Fin 16384) (d : Fin 512) :
    affine x bm ist sc off (ix3 s b d) = (x (ix2 b d) - bm (ix2 0 d)) * ist (ix2 0 d) * sc (ix2 s d) + off (ix2 s d) := rfl

/-- The zero offsets of a whole-buffer rectangle, rank 2 and rank 3. -/
theorem zeros2 : (![0, 0] : Fin 2 → Nat) = fun _ => 0 := funext fun a => by fin_cases a <;> rfl
theorem zeros3 : (![0, 0, 0] : Fin 3 → Nat) = fun _ => 0 := funext fun a => by fin_cases a <;> rfl

/-- The printed index maps, decided over the grid: the output's block index at point `t` is (scene, row tile, 0) with
    the scene `t mod 16` and the row tile `t / 16`; the batch's block moves with the row tile; the four small arrays are
    read whole; the second grid coordinate is the scene. -/
theorem index_maps : ∀ t : Fin cfg1.N,
    win1_5.index t (0 : Fin 3) = t.val % 16 ∧ win1_5.index t (1 : Fin 3) = t.val / 16 ∧ win1_5.index t (2 : Fin 3) = 0
    ∧ win1_0.index t (0 : Fin 2) = t.val / 16 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ (grid1.coords t 1).val = t.val % 16 :=
  (by decide +kernel : ∀ t : Fin grid1.N, _)

/-! ## One point's write-back -/

/-- Where an element of the output's block at point `t` sits in the output array: scene `t mod 16`, row `2048 · (t / 16) + r`. -/
theorem out_emb (t : Fin cfg1.N) (u : Fin 1) (r : Fin 2048) (d : Fin 512) (s : Fin 16) (b : Fin 16384)
    (hs : s.val = t.val % 16) (hb : b.val = t.val / 16 * 2048 + r.val) :
    ((cfg1.win 5).blk t).view.emb (ix3 u r d) = ix3 s b d := by
  obtain ⟨e50, e51, e52, -⟩ := index_maps t
  funext a; apply Fin.ext
  match a with
  | ⟨0, _⟩ => show win1_5.index t (0 : Fin 3) * 1 + 1 * u.val = s.val; have := u.isLt; omega
  | ⟨1, _⟩ => show win1_5.index t (1 : Fin 3) * 2048 + 1 * r.val = b.val; omega
  | ⟨2, _⟩ => show win1_5.index t (2 : Fin 3) * 512 + 1 * d.val = d.val; omega

/-- The batch's block at point `t` is rows `2048 · (t / 16) …` of the batch. -/
theorem x_blk (c : Dev nD) (t : Fin cfg1.N) (r : Fin 2048) (d : Fin 512) (b : Fin 16384) (hb : b.val = t.val / 16 * 2048 + r.val) :
    (iblk1 V c 0 t : FVec Ideal S2048x512 .f32) (ix2 r d) = xin V c (ix2 b d) := by
  obtain ⟨-, -, -, e00, e01, -⟩ := index_maps t
  unfold iblk1
  rw [View.read_apply]
  show V c (Pipeline.arrRef spec1 0) (((cfg1.win 0).blk t).view.emb (ix2 r d)) = V c (Pipeline.arrRef spec1 0) (ix2 b d)
  refine congrArg _ ?_
  funext a; apply Fin.ext
  match a with
  | ⟨0, _⟩ => show win1_0.index t (0 : Fin 2) * 2048 + 1 * r.val = b.val; omega
  | ⟨1, _⟩ => show win1_0.index t (1 : Fin 2) * 512 + 1 * d.val = d.val; omega

/-- The batch mean is read whole at every point. -/
theorem bm_blk (c : Dev nD) (t : Fin cfg1.N) (q : Fin 1) (d : Fin 512) :
    (iblk1 V c 1 t : FVec Ideal S1x512 .f32) (ix2 q d) = bmean V c (ix2 q d) := by
  obtain ⟨-, -, -, -, -, e10, e11, -⟩ := index_maps t
  unfold iblk1
  rw [View.read_apply]
  show V c (Pipeline.arrRef spec1 1) (((cfg1.win 1).blk t).view.emb (ix2 q d)) = V c (Pipeline.arrRef spec1 1) (ix2 q d)
  refine congrArg _ ?_
  funext a; apply Fin.ext
  match a with
  | ⟨0, _⟩ => show win1_1.index t (0 : Fin 2) * 1 + 1 * q.val = q.val; omega
  | ⟨1, _⟩ => show win1_1.index t (1 : Fin 2) * 512 + 1 * d.val = d.val; omega

/-- The inverse deviation is read whole at every point. -/
theorem is_blk (c : Dev nD) (t : Fin cfg1.N) (q : Fin 1) (d : Fin 512) :
    (iblk1 V c 2 t : FVec Ideal S1x512 .f32) (ix2 q d) = istd V c (ix2 q d) := by
  obtain ⟨-, -, -, -, -, -, -, e20, e21, -⟩ := index_maps t
  unfold iblk1
  rw [View.read_apply]
  show V c (Pipeline.arrRef spec1 2) (((cfg1.win 2).blk t).view.emb (ix2 q d)) = V c (Pipeline.arrRef spec1 2) (ix2 q d)
  refine congrArg _ ?_
  funext a; apply Fin.ext
  match a with
  | ⟨0, _⟩ => show win1_2.index t (0 : Fin 2) * 1 + 1 * q.val = q.val; omega
  | ⟨1, _⟩ => show win1_2.index t (1 : Fin 2) * 512 + 1 * d.val = d.val; omega

/-- The scale table is read whole at every point. -/
theorem sc_blk (c : Dev nD) (t : Fin cfg1.N) (q : Fin 16) (d : Fin 512) :
    (iblk1 V c 3 t : FVec Ideal S16x512 .f32) (ix2 q d) = scl V c (ix2 q d) := by
  obtain ⟨-, -, -, -, -, -, -, -, -, e30, e31, -⟩ := index_maps t
  unfold iblk1
  rw [View.read_apply]
  show V c (Pipeline.arrRef spec1 3) (((cfg1.win 3).blk t).view.emb (ix2 q d)) = V c (Pipeline.arrRef spec1 3) (ix2 q d)
  refine congrArg _ ?_
  funext a; apply Fin.ext
  match a with
  | ⟨0, _⟩ => show win1_3.index t (0 : Fin 2) * 16 + 1 * q.val = q.val; omega
  | ⟨1, _⟩ => show win1_3.index t (1 : Fin 2) * 512 + 1 * d.val = d.val; omega

/-- The offset table is read whole at every point. -/
theorem of_blk (c : Dev nD) (t : Fin cfg1.N) (q : Fin 16) (d : Fin 512) :
    (iblk1 V c 4 t : FVec Ideal S16x512 .f32) (ix2 q d) = ofs V c (ix2 q d) := by
  obtain ⟨-, -, -, -, -, -, -, -, -, -, -, e40, e41, -⟩ := index_maps t
  unfold iblk1
  rw [View.read_apply]
  show V c (Pipeline.arrRef spec1 4) (((cfg1.win 4).blk t).view.emb (ix2 q d)) = V c (Pipeline.arrRef spec1 4) (ix2 q d)
  refine congrArg _ ?_
  funext a; apply Fin.ext
  match a with
  | ⟨0, _⟩ => show win1_4.index t (0 : Fin 2) * 16 + 1 * q.val = q.val; omega
  | ⟨1, _⟩ => show win1_4.index t (1 : Fin 2) * 512 + 1 * d.val = d.val; omega

/-- WHAT POINT `t` WRITES BACK is its block of the normalised batch under scene `t mod 16`'s scale and offset. -/
theorem point_writes (c : Dev nD) (t : Fin cfg1.N) :
    (dat1 V c).flushed 5 t
      = ((cfg1.win 5).blk t).view.read (Elt Ideal) (affine (xin V c) (bmean V c) (istd V c) (scl V c) (ofs V c)) := by
  show (cfg1.win 5).cut (grid1.coords t) ((dat1 V c).after 5 t) = _
  rw [after1_5]
  unfold out1_5
  rw [View.canon_unit_zero zeros3]
  simp only [View.ld_unit_zero (S := S2048x512) zeros2, View.ld_unit_zero (S := S1x512) zeros2, View.ld_unit_zero (S := S16x512) zeros2]
  have hN : cfg1.N = 128 := N_1
  have ht : t.val < 128 := hN ▸ t.isLt
  have ec : (grid1.coords t 1).val = t.val % 16 := (index_maps t).2.2.2.2.2.2.2.2.2.2.2.2.2
  funext j
  obtain ⟨u, r, d, rfl⟩ : ∃ (u : Fin 1) (r : Fin 2048) (d : Fin 512), j = ix3 u r d := ⟨j 0, j 1, j 2, eq_ix3 j⟩
  show k1_pay1 (F := Ideal) (grid1.coords t) (iblk1 V c 0 t) (iblk1 V c 1 t) (iblk1 V c 2 t) (iblk1 V c 3 t) (iblk1 V c 4 t) (ix3 u r d)
    = affine (xin V c) (bmean V c) (istd V c) (scl V c) (ofs V c) (((cfg1.win 5).blk t).view.emb (ix3 u r d))
  rw [out_emb t u r d ⟨t.val % 16, Nat.mod_lt _ (by decide)⟩ ⟨t.val / 16 * 2048 + r.val, by have := r.isLt; omega⟩ rfl rfl, affine_apply]
  refine (pay_apply (grid1.coords t) ⟨t.val % 16, Nat.mod_lt _ (by decide)⟩ ec (iblk1 V c 0 t) (iblk1 V c 1 t) (iblk1 V c 2 t)
    (iblk1 V c 3 t) (iblk1 V c 4 t) u r d).trans ?_
  rw [x_blk V c t r d ⟨t.val / 16 * 2048 + r.val, by have := r.isLt; omega⟩ rfl, bm_blk V c t 0 d, is_blk V c t 0 d,
    sc_blk V c t ⟨t.val % 16, Nat.mod_lt _ (by decide)⟩ d, of_blk V c t ⟨t.val % 16, Nat.mod_lt _ (by decide)⟩ d]

/-! ## From the blocks to the array -/

/-- An index of the output array is in point `t`'s block iff each coordinate is in the block's range on its axis. -/
theorem mem_out_block (t : Fin cfg1.N) (i : S16x16384x512.Idx) :
    i ∈ ((cfg1.win 5).blk t).view.set ↔ ∀ a : Fin 3, win1_5.index t a * S1x2048x512.size a ≤ (i a).val
      ∧ (i a).val < win1_5.index t a * S1x2048x512.size a + S1x2048x512.size a := by
  show i ∈ ((View.whole main_v44).slice (win1_5.rect t)).set ↔ _
  rw [View.set_slice_whole, Rect.mem_set_unit]
  exact Iff.rfl

/-- Every element of the output array is written by some point: scene `s`, row `b` by point `16 · (b / 2048) + s`. -/
theorem every_element_written (i : S16x16384x512.Idx) :
    ∃ t : Fin cfg1.N, (cfg1.win 5).flush t = true ∧ i ∈ ((cfg1.win 5).blk t).view.set := by
  have h0 : (i 0).val < 16 := (i 0).isLt
  have h1 : (i 1).val < 16384 := (i 1).isLt
  have h2 : (i 2).val < 512 := (i 2).isLt
  have hN : cfg1.N = 128 := N_1
  have hlt : 16 * ((i 1).val / 2048) + (i 0).val < cfg1.N := by rw [hN]; omega
  obtain ⟨e50, e51, e52, -⟩ := index_maps ⟨16 * ((i 1).val / 2048) + (i 0).val, hlt⟩
  refine ⟨⟨16 * ((i 1).val / 2048) + (i 0).val, hlt⟩, flush1_5 _, ?_⟩
  rw [mem_out_block]
  intro a
  match a with
  | ⟨0, _⟩ =>
    show win1_5.index ⟨16 * ((i 1).val / 2048) + (i 0).val, hlt⟩ (0 : Fin 3) * 1 ≤ (i 0).val
      ∧ (i 0).val < win1_5.index ⟨16 * ((i 1).val / 2048) + (i 0).val, hlt⟩ (0 : Fin 3) * 1 + 1
    rw [e50]; show (16 * ((i 1).val / 2048) + (i 0).val) % 16 * 1 ≤ (i 0).val ∧ (i 0).val < (16 * ((i 1).val / 2048) + (i 0).val) % 16 * 1 + 1
    omega
  | ⟨1, _⟩ =>
    show win1_5.index ⟨16 * ((i 1).val / 2048) + (i 0).val, hlt⟩ (1 : Fin 3) * 2048 ≤ (i 1).val
      ∧ (i 1).val < win1_5.index ⟨16 * ((i 1).val / 2048) + (i 0).val, hlt⟩ (1 : Fin 3) * 2048 + 2048
    rw [e51]; show (16 * ((i 1).val / 2048) + (i 0).val) / 16 * 2048 ≤ (i 1).val ∧ (i 1).val < (16 * ((i 1).val / 2048) + (i 0).val) / 16 * 2048 + 2048
    omega
  | ⟨2, _⟩ =>
    show win1_5.index ⟨16 * ((i 1).val / 2048) + (i 0).val, hlt⟩ (2 : Fin 3) * 512 ≤ (i 2).val
      ∧ (i 2).val < win1_5.index ⟨16 * ((i 1).val / 2048) + (i 0).val, hlt⟩ (2 : Fin 3) * 512 + 512
    rw [e52]; omega

/-- THE OUTPUT ARRAY after the region's 128 points is the normalised batch under every scene's scale and offset. -/
theorem out_array (c : Dev nD) :
    (dat1 V c).arrAt 5 cfg1.N = affine (xin V c) (bmean V c) (istd V c) (scl V c) (ofs V c) :=
  (dat1 V c).arrAt_eq_of_cover 5 (affine (xin V c) (bmean V c) (istd V c) (scl V c) (ofs V c))
    (fun t _ => point_writes V c t) every_element_written

/-- The output array after the region's 128 points, element by element. -/
theorem out_arr (c : Dev nD) (s : Fin 16) (b : Fin 16384) (d : Fin 512) :
    ((dat1 V c).arrAt 5 cfg1.N : FVec Ideal S16x16384x512 .f32) (ix3 s b d)
      = (xin V c (ix2 b d) - bmean V c (ix2 0 d)) * istd V c (ix2 0 d) * scl V c (ix2 s d) + ofs V c (ix2 s d) :=
  (congrFun (out_array V c) (ix3 s b d)).trans (affine_apply _ _ _ _ _ s b d)

end Cert.KernelIdeal.Affine

end
-- ==== Proof.KernelValue.lean ====
/-
  The kernel program's three results over the launch memory.

  The first region's four arrays are the sums of the batch (and of its squares) over all rows, plain and per scene; the
  operations after it turn them into the batch mean and reciprocal deviation, the moving averages and the scale and offset
  tables; the second region normalises every row with those. Threading the buffer contents from boundary to boundary —
  each region's arrays at what its write-backs leave, every other buffer as it was — gives each result element as one
  expression in the eight arguments.
-/
import proofs.«127924_j88785563943272_1_alg».proof.Proof.HostRead
import proofs.«127924_j88785563943272_1_alg».proof.Proof.Stats
import proofs.«127924_j88785563943272_1_alg».proof.Proof.Affine

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Value

open Cert.KernelIdeal Cert.KernelIdeal.Gen Cert.KernelIdeal.GenP Cert.Moments Cert.KernelIdeal.HostRead

variable (m : (ℓ : Loc nD τ sig) → Buf (Elt Ideal) ℓ) (ρ : Dev nD → PrngReg)

/-- The eight arguments as launched, each at its literal type. -/
abbrev X (c : Dev nD) : FVec Ideal S16384x512 .f32 := m ((c : Thread nD τ).loc main_arg0)
abbrev SID (c : Dev nD) : IVec S16384x1 32 := m ((c : Thread nD τ).loc main_arg1)
abbrev A2 (c : Dev nD) : FVec Ideal S512 .f32 := m ((c : Thread nD τ).loc main_arg2)
abbrev A3 (c : Dev nD) : FVec Ideal S512 .f32 := m ((c : Thread nD τ).loc main_arg3)
abbrev A4 (c : Dev nD) : FVec Ideal S16x512 .f32 := m ((c : Thread nD τ).loc main_arg4)
abbrev A5 (c : Dev nD) : FVec Ideal S16x512 .f32 := m ((c : Thread nD τ).loc main_arg5)
abbrev A6 (c : Dev nD) : FVec Ideal S16x512 .f32 := m ((c : Thread nD τ).loc main_arg6)
abbrev A7 (c : Dev nD) : FVec Ideal S16x512 .f32 := m ((c : Thread nD τ).loc main_arg7)

/-! ## The arguments at the first region's exit are the arguments as launched -/

theorem batch_W2 (c : Dev nD) : (W2 m ρ c (Proc.devRef .tc main_arg0) : FVec Ideal S16384x512 .f32) = X m c :=
  ((W2_arr m ρ c 0).trans (((dat0 (V1 m ρ) c).arrAt_in 0 rfl _).trans (A_eq0 (V1 m ρ) c 0))).trans (batch_V1 m ρ c)

theorem a2_eq (c : Dev nD) : a2 m ρ c = A2 m c :=
  (W2_of_ne m ρ c main_arg2 (by decide)).trans (by
    show StableHlo.after hostOps0 (W0 m ρ c) (Proc.devRef .tc main_arg2) = _
    after_results)
theorem a3_eq (c : Dev nD) : a3 m ρ c = A3 m c :=
  (W2_of_ne m ρ c main_arg3 (by decide)).trans (by
    show StableHlo.after hostOps0 (W0 m ρ c) (Proc.devRef .tc main_arg3) = _
    after_results)
theorem a4_eq (c : Dev nD) : a4 m ρ c = A4 m c :=
  (W2_of_ne m ρ c main_arg4 (by decide)).trans (by
    show StableHlo.after hostOps0 (W0 m ρ c) (Proc.devRef .tc main_arg4) = _
    after_results)
theorem a5_eq (c : Dev nD) : a5 m ρ c = A5 m c :=
  (W2_of_ne m ρ c main_arg5 (by decide)).trans (by
    show StableHlo.after hostOps0 (W0 m ρ c) (Proc.devRef .tc main_arg5) = _
    after_results)
theorem a6_eq (c : Dev nD) : a6 m ρ c = A6 m c :=
  (W2_of_ne m ρ c main_arg6 (by decide)).trans (by
    show StableHlo.after hostOps0 (W0 m ρ c) (Proc.devRef .tc main_arg6) = _
    after_results)
theorem a7_eq (c : Dev nD) : a7 m ρ c = A7 m c :=
  (W2_of_ne m ρ c main_arg7 (by decide)).trans (by
    show StableHlo.after hostOps0 (W0 m ρ c) (Proc.devRef .tc main_arg7) = _
    after_results)

/-! ## The first region's sums, over the arguments as launched -/

theorem sumX_eq (c : Dev nD) (d : Fin 512) :
    sumX m ρ c (ix2 0 d) = ∑ b : Fin 16384, X m c (ix2 b d) := by
  have e : sumX m ρ c = ((dat0 (V1 m ρ) c).arrAt 2 cfg0.N : FVec Ideal S1x512 .f32) := W2_arr m ρ c 2
  have ex : Stats.xin (V1 m ρ) c = X m c := batch_V1 m ρ c
  rw [e, Stats.colsum_arr (V1 m ρ) c d, ex]

theorem sumXX_eq (c : Dev nD) (d : Fin 512) :
    sumXX m ρ c (ix2 0 d) = ∑ b : Fin 16384, X m c (ix2 b d) * X m c (ix2 b d) := by
  have e : sumXX m ρ c = ((dat0 (V1 m ρ) c).arrAt 3 cfg0.N : FVec Ideal S1x512 .f32) := W2_arr m ρ c 3
  have ex : Stats.xin (V1 m ρ) c = X m c := batch_V1 m ρ c
  rw [e, Stats.colsq_arr (V1 m ρ) c d, ex]

theorem scX_eq (c : Dev nD) (s : Fin 16) (d : Fin 512) :
    scX m ρ c (ix2 s d) = ∑ b : Fin 16384, member (SID m c (ix2 b 0)) s * X m c (ix2 b d) := by
  have e : scX m ρ c = ((dat0 (V1 m ρ) c).arrAt 4 cfg0.N : FVec Ideal S16x512 .f32) := W2_arr m ρ c 4
  have ex : Stats.xin (V1 m ρ) c = X m c := batch_V1 m ρ c
  rw [e, Stats.scsum_arr (V1 m ρ) c s d, ex]
  exact Finset.sum_congr rfl fun b _ => congrArg (· * X m c (ix2 b d)) (memb_apply m ρ c b s)

theorem scXX_eq (c : Dev nD) (s : Fin 16) (d : Fin 512) :
    scXX m ρ c (ix2 s d) = ∑ b : Fin 16384, member (SID m c (ix2 b 0)) s * (X m c (ix2 b d) * X m c (ix2 b d)) := by
  have e : scXX m ρ c = ((dat0 (V1 m ρ) c).arrAt 5 cfg0.N : FVec Ideal S16x512 .f32) := W2_arr m ρ c 5
  have ex : Stats.xin (V1 m ρ) c = X m c := batch_V1 m ρ c
  rw [e, Stats.scsq_arr (V1 m ρ) c s d, ex]
  exact Finset.sum_congr rfl fun b _ => congrArg (· * (X m c (ix2 b d) * X m c (ix2 b d))) (memb_apply m ρ c b s)

/-! ## The three results -/

/-- The output: the row less the batch mean, times the reciprocal deviation, times the scene's scale, plus its offset. -/
theorem out_value (c : Dev nD) (s : Fin 16) (b : Fin 16384) (d : Fin 512) :
    (W4 m ρ c (Proc.devRef .tc main_v44) : FVec Ideal S16x16384x512 .f32) (ix3 s b d)
      = (X m c (ix2 b d) - (∑ k : Fin 16384, X m c (ix2 k d)) * Ideal.ofBits .f32 0x38800000#32)
          * Ideal.rsqrt (((∑ k : Fin 16384, X m c (ix2 k d) * X m c (ix2 k d)) * Ideal.ofBits .f32 0x38800000#32
              - (∑ k : Fin 16384, X m c (ix2 k d)) * Ideal.ofBits .f32 0x38800000#32
                * ((∑ k : Fin 16384, X m c (ix2 k d)) * Ideal.ofBits .f32 0x38800000#32))
              + Ideal.ofBits .f32 0x3A83126F#32)
          * (A2 m c (ix1 d) * A4 m c (ix2 s d)) + (A3 m c (ix1 d) + A5 m c (ix2 s d)) := by
  have e : (W4 m ρ c (Proc.devRef .tc main_v44) : FVec Ideal S16x16384x512 .f32) = (dat1 (V3 m ρ) c).arrAt 5 cfg1.N :=
    W4_arr m ρ c 5
  have e0 : Affine.xin (V3 m ρ) c = X m c := (batch_V3 m ρ c).trans (batch_W2 m ρ c)
  have e1 : Affine.bmean (V3 m ρ) c (ix2 0 d) = _ := bmean_apply m ρ c d
  have e2 : Affine.istd (V3 m ρ) c (ix2 0 d) = _ := istd_apply m ρ c d
  have e3 : Affine.scl (V3 m ρ) c (ix2 s d) = _ := scale_apply m ρ c s d
  have e4 : Affine.ofs (V3 m ρ) c (ix2 s d) = _ := offset_apply m ρ c s d
  rw [e, Affine.out_arr (V3 m ρ) c s b d, e0, e1, e2, e3, e4, sumX_eq m ρ c d, sumXX_eq m ρ c d, a2_eq, a3_eq, a4_eq, a5_eq]

/-- The updated moving mean. -/
theorem newmean_value (c : Dev nD) (s : Fin 16) (d : Fin 512) :
    (W4 m ρ c (Proc.devRef .tc main_v27) : FVec Ideal S16x512 .f32) (ix2 s d)
      = A6 m c (ix2 s d) * Ideal.ofBits .f32 0x3F7D70A4#32
        + (∑ b : Fin 16384, member (SID m c (ix2 b 0)) s * X m c (ix2 b d)) * Ideal.ofBits .f32 0x38800000#32
            * Ideal.ofBits .f32 0x3C23D70A#32 := by
  have e : (W4 m ρ c (Proc.devRef .tc main_v27) : FVec Ideal S16x512 .f32) = V3 m ρ c main_v27 :=
    W4_of_ne m ρ c main_v27 (by decide)
  rw [e, newmean_apply, scX_eq, a6_eq]

/-- The updated moving variance. -/
theorem newvar_value (c : Dev nD) (s : Fin 16) (d : Fin 512) :
    (W4 m ρ c (Proc.devRef .tc main_v32) : FVec Ideal S16x512 .f32) (ix2 s d)
      = A7 m c (ix2 s d) * Ideal.ofBits .f32 0x3F7D70A4#32
        + ((∑ b : Fin 16384, member (SID m c (ix2 b 0)) s * (X m c (ix2 b d) * X m c (ix2 b d))) * Ideal.ofBits .f32 0x38800000#32
            - (∑ b : Fin 16384, member (SID m c (ix2 b 0)) s * X m c (ix2 b d)) * Ideal.ofBits .f32 0x38800000#32
              * ((∑ b : Fin 16384, member (SID m c (ix2 b 0)) s * X m c (ix2 b d)) * Ideal.ofBits .f32 0x38800000#32))
          * Ideal.ofBits .f32 0x3C23D70A#32 := by
  have e : (W4 m ρ c (Proc.devRef .tc main_v32) : FVec Ideal S16x512 .f32) = V3 m ρ c main_v32 :=
    W4_of_ne m ρ c main_v32 (by decide)
  rw [e, newvar_apply, scXX_eq, scX_eq, a7_eq]

end Cert.KernelIdeal.Value

end
-- ==== Proof.RefValue.lean ====
/-
  What the reference computes, element by element: its run's three result terms read one operation at a time.
  The column mean is the sum divided by the batch size, the column variance the mean of the squared deviations from that mean;
  each scene's moments are sums against its membership row; the output is the normalised batch times the scene's scale plus
  the scene's offset.
-/
import proofs.«127924_j88785563943272_1_alg».proof.Proof.Gen.ReferenceIdeal.Run
import proofs.«127924_j88785563943272_1_alg».proof.Proof.Gen.ReferenceIdeal.Read
import proofs.«127924_j88785563943272_1_alg».proof.Proof.Moments
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.Moments

variable (x0 : (⟨S16384x512, .f32⟩ : BufTy).Contents (Elt Ideal)) (x1 : (⟨S16384x1, .i32⟩ : BufTy).Contents (Elt Ideal))
  (x2 x3 : (⟨S512, .f32⟩ : BufTy).Contents (Elt Ideal)) (x4 x5 x6 x7 : (⟨S16x512, .f32⟩ : BufTy).Contents (Elt Ideal))

/-- Column `d`'s mean as the reference takes it: the sum from `+0.0`, divided by 16384. -/
def colMean (d : Fin 512) : EReal :=
  Ideal.div (Ideal.ofBits .f32 0x00000000#32 + ∑ b : Fin 16384, x0 (ix2 b d)) (Ideal.ofBits .f32 0x46800000#32)

/-- Column `d`'s variance as the reference takes it: the squared deviations from `colMean`, summed from `+0.0`, divided by 16384. -/
def colVar (d : Fin 512) : EReal :=
  Ideal.div (Ideal.ofBits .f32 0x00000000#32
    + ∑ b : Fin 16384, (x0 (ix2 b d) - colMean x0 d) * (x0 (ix2 b d) - colMean x0 d)) (Ideal.ofBits .f32 0x46800000#32)

/-! ## Where the composed index functions land

Each layout stage reads its operand at a computed index. At the coordinates the results are stated at, those computed
indices are the plain coordinate tuples below. -/

/-- The column sum's summand number `k` sits at row `k`, column `d`. -/
theorem idx_colsum (d : Fin 512) (k : Fin 16384) : idx_main_v0 (ix1 d) k = ix2 k d :=
  funext fun a => Fin.ext (by match a with | ⟨0, _⟩ => rfl | ⟨1, _⟩ => rfl)

/-- The same for the sum of squared deviations. -/
theorem idx_colsqsum (d : Fin 512) (k : Fin 16384) : idx_main_v7 (ix1 d) k = ix2 k d :=
  funext fun a => Fin.ext (by match a with | ⟨0, _⟩ => rfl | ⟨1, _⟩ => rfl)

/-- A per-column vector spread over the rows is read at the column (the centring pass). -/
theorem idx_row_of_col (b : Fin 16384) (d : Fin 512) : idx_main_v3 (idx_main_v4 (ix2 b d)) = ix1 d :=
  funext fun a => Fin.ext (by match a with | ⟨0, _⟩ => rfl)

/-- The same spreading, as it is taken again for the normalisation: the mean. -/
theorem idx_row_of_col_mean (b : Fin 16384) (d : Fin 512) : idx_main_v37 (idx_main_v38 (ix2 b d)) = ix1 d :=
  funext fun a => Fin.ext (by match a with | ⟨0, _⟩ => rfl)

/-- The same spreading of the reciprocal standard deviation. -/
theorem idx_row_of_col_rstd (b : Fin 16384) (d : Fin 512) : idx_main_v43 (idx_main_v44 (ix2 b d)) = ix1 d :=
  funext fun a => Fin.ext (by match a with | ⟨0, _⟩ => rfl)

/-- The common scale spread over the scenes is read at the column. -/
theorem idx_scene_of_col_scale (s : Fin 16) (d : Fin 512) : idx_main_v46 (idx_main_v47 (ix2 s d)) = ix1 d :=
  funext fun a => Fin.ext (by match a with | ⟨0, _⟩ => rfl)

/-- The common offset spread over the scenes is read at the column. -/
theorem idx_scene_of_col_offset (s : Fin 16) (d : Fin 512) : idx_main_v49 (idx_main_v50 (ix2 s d)) = ix1 d :=
  funext fun a => Fin.ext (by match a with | ⟨0, _⟩ => rfl)

/-- The normalised batch spread over the scenes is read at row `b`, column `d`. -/
theorem idx_out_batch (s : Fin 16) (b : Fin 16384) (d : Fin 512) : idx_main_v52 (idx_main_v54 (ix3 s b d)) = ix2 b d :=
  funext fun a => Fin.ext (by match a with | ⟨0, _⟩ => rfl | ⟨1, _⟩ => rfl)

/-- The scene's scale spread over the rows is read at scene `s`, column `d`. -/
theorem idx_out_scale (s : Fin 16) (b : Fin 16384) (d : Fin 512) : idx_main_v53 (idx_main_v55 (ix3 s b d)) = ix2 s d :=
  funext fun a => Fin.ext (by match a with | ⟨0, _⟩ => rfl | ⟨1, _⟩ => rfl)

/-- The scene's offset spread over the rows is read at scene `s`, column `d`. -/
theorem idx_out_offset (s : Fin 16) (b : Fin 16384) (d : Fin 512) : idx_main_v57 (idx_main_v58 (ix3 s b d)) = ix2 s d :=
  funext fun a => Fin.ext (by match a with | ⟨0, _⟩ => rfl | ⟨1, _⟩ => rfl)

/-- The membership table is laid out scene by row: its entry at `(s, k)` reads the scene id of row `k`. -/
theorem idx_member_row (s : Fin 16) (k : Fin 16384) :
    idx_main_v11 (idx_main_v12 (idx_main_v14 (ix2 s k))) = ix2 k (0 : Fin 1) :=
  funext fun a => Fin.ext (by
    match a with
    | ⟨0, _⟩ => show k.val / 1 = k.val; omega
    | ⟨1, _⟩ => rfl)

/-- The contraction's left operand at step `k` is the membership table's entry `(s, k)`. -/
theorem idx_dot_left (s : Fin 16) (d : Fin 512) (k : Fin 16384) : lidx_main_v18 (ix2 s d) k = ix2 s k :=
  funext fun a => Fin.ext (by match a with | ⟨0, _⟩ => rfl | ⟨1, _⟩ => rfl)

/-- The contraction's right operand at step `k` is the batch's entry `(k, d)`. -/
theorem idx_dot_right (s : Fin 16) (d : Fin 512) (k : Fin 16384) : ridx_main_v18 (ix2 s d) k = ix2 k d :=
  funext fun a => Fin.ext (by match a with | ⟨0, _⟩ => rfl | ⟨1, _⟩ => rfl)

/-- The same two for the contraction against the squared batch. -/
theorem idx_dotsq_left (s : Fin 16) (d : Fin 512) (k : Fin 16384) : lidx_main_v22 (ix2 s d) k = ix2 s k :=
  funext fun a => Fin.ext (by match a with | ⟨0, _⟩ => rfl | ⟨1, _⟩ => rfl)

theorem idx_dotsq_right (s : Fin 16) (d : Fin 512) (k : Fin 16384) : ridx_main_v22 (ix2 s d) k = ix2 k d :=
  funext fun a => Fin.ext (by match a with | ⟨0, _⟩ => rfl | ⟨1, _⟩ => rfl)

/-! ## The shared stages -/

/-- The column mean (`%2`) at column `d`. -/
theorem mean_at (d : Fin 512) : val_main_v2 (F := Ideal) x0 (ix1 d) = colMean x0 d := by
  have hs : ∑ k : Fin 16384, x0 (idx_main_v0 (ix1 d) k) = ∑ k : Fin 16384, x0 (ix2 k d) :=
    Finset.sum_congr rfl fun k _ => by rw [idx_colsum]
  rw [val_main_v2_apply, val_main_v0_apply, val_main_v1_apply, hs] <;> rfl

/-- The centred batch (`%5`) at row `b`, column `d`. -/
theorem centred_at (b : Fin 16384) (d : Fin 512) :
    val_main_v5 (F := Ideal) x0 (ix2 b d) = x0 (ix2 b d) - colMean x0 d := by
  rw [val_main_v5_apply, val_main_v4_apply, val_main_v3_apply, idx_row_of_col, mean_at] <;> rfl

/-- The squared deviation (`%6`) at row `b`, column `d`. -/
theorem sqdev_at (b : Fin 16384) (d : Fin 512) :
    val_main_v6 (F := Ideal) x0 (ix2 b d) = (x0 (ix2 b d) - colMean x0 d) * (x0 (ix2 b d) - colMean x0 d) := by
  rw [val_main_v6_apply, centred_at] <;> rfl

/-- The column variance (`%9`) at column `d`. -/
theorem var_at (d : Fin 512) : val_main_v9 (F := Ideal) x0 (ix1 d) = colVar x0 d := by
  have hs : ∑ k : Fin 16384, val_main_v6 (F := Ideal) x0 (idx_main_v7 (ix1 d) k)
      = ∑ k : Fin 16384, (x0 (ix2 k d) - colMean x0 d) * (x0 (ix2 k d) - colMean x0 d) :=
    Finset.sum_congr rfl fun k _ => by rw [idx_colsqsum, sqdev_at]
  rw [val_main_v9_apply, val_main_v7_apply, val_main_v8_apply, hs] <;> rfl

/-- The normalised batch (`%45`) at row `b`, column `d`: the deviation from the mean times the reciprocal root of the
    variance plus the literal `1e-3`. -/
theorem normed_at (b : Fin 16384) (d : Fin 512) :
    val_main_v45 (F := Ideal) x0 (ix2 b d)
      = (x0 (ix2 b d) - colMean x0 d) * Ideal.rsqrt (colVar x0 d + Ideal.ofBits .f32 0x3A83126F#32) := by
  rw [val_main_v45_apply, val_main_v39_apply, val_main_v38_apply, val_main_v37_apply, idx_row_of_col_mean, mean_at,
    val_main_v44_apply, val_main_v43_apply, idx_row_of_col_rstd, val_main_v42_apply, val_main_v41_apply, var_at,
    val_main_v40_apply] <;> rfl

/-- The scene's scale (`%48`): the common scale times the scene's own. -/
theorem scale_at (s : Fin 16) (d : Fin 512) :
    val_main_v48 (F := Ideal) x2 x4 (ix2 s d) = x2 (ix1 d) * x4 (ix2 s d) := by
  rw [val_main_v48_apply, val_main_v47_apply, val_main_v46_apply, idx_scene_of_col_scale] <;> rfl

/-- The scene's offset (`%51`): the common offset plus the scene's own. -/
theorem offset_at (s : Fin 16) (d : Fin 512) :
    val_main_v51 (F := Ideal) x3 x5 (ix2 s d) = x3 (ix1 d) + x5 (ix2 s d) := by
  rw [val_main_v51_apply, val_main_v50_apply, val_main_v49_apply, idx_scene_of_col_offset] <;> rfl

/-- The membership table (`%17`) at scene `s`, row `k`: whether row `k`'s scene id is `s`, as `1` or `0`. The table is
    built scene by row from the id column: the ids are spread along the rows of a 16-row table, the scene numbers
    `0 … 15` down its columns, and the two are compared entry by entry. -/
theorem member_at (s : Fin 16) (k : Fin 16384) :
    val_main_v17 (F := Ideal) x1 (ix2 s k) = member (x1 (ix2 k 0)) s := by
  rw [val_main_v17_apply, val_main_v16_apply, val_main_v14_apply, val_main_v12_apply, val_main_v11_apply,
    idx_member_row, val_main_v15_apply, val_main_v13_apply, val_main_v10_apply] <;> rfl

/-- The scene's sum of the batch (`%18`) at scene `s`, column `d`. -/
theorem scenesum_at (s : Fin 16) (d : Fin 512) :
    val_main_v18 (F := Ideal) x0 x1 (ix2 s d) = ∑ b : Fin 16384, member (x1 (ix2 b 0)) s * x0 (ix2 b d) := by
  rw [val_main_v18_apply]
  exact Finset.sum_congr rfl fun k _ => by rw [idx_dot_left, idx_dot_right, member_at]

/-- The scene's sum of the squared batch (`%22`) at scene `s`, column `d`. -/
theorem scenesqsum_at (s : Fin 16) (d : Fin 512) :
    val_main_v22 (F := Ideal) x0 x1 (ix2 s d)
      = ∑ b : Fin 16384, member (x1 (ix2 b 0)) s * (x0 (ix2 b d) * x0 (ix2 b d)) := by
  rw [val_main_v22_apply]
  exact Finset.sum_congr rfl fun k _ => by
    rw [idx_dotsq_left, idx_dotsq_right, member_at, val_main_v21_apply] <;> rfl

/-- The scene's mean (`%20`): its sum times the literal `2⁻¹⁴`. -/
theorem scenemean_at (s : Fin 16) (d : Fin 512) :
    val_main_v20 (F := Ideal) x0 x1 (ix2 s d)
      = (∑ b : Fin 16384, member (x1 (ix2 b 0)) s * x0 (ix2 b d)) * Ideal.ofBits .f32 0x38800000#32 := by
  rw [val_main_v20_apply, scenesum_at, val_main_v19_apply] <;> rfl

/-! ## The three results -/

/-- The first result (`%59`) at scene `s`, row `b`, column `d`. -/
theorem out_apply (s : Fin 16) (b : Fin 16384) (d : Fin 512) :
    val_main_v59 (F := Ideal) x0 x2 x3 x4 x5 (ix3 s b d)
      = (x0 (ix2 b d) - colMean x0 d) * Ideal.rsqrt (colVar x0 d + Ideal.ofBits .f32 0x3A83126F#32)
          * (x2 (ix1 d) * x4 (ix2 s d)) + (x3 (ix1 d) + x5 (ix2 s d)) := by
  rw [val_main_v59_apply, val_main_v56_apply, val_main_v54_apply, val_main_v52_apply, idx_out_batch, normed_at,
    val_main_v55_apply, val_main_v53_apply, idx_out_scale, scale_at,
    val_main_v58_apply, val_main_v57_apply, idx_out_offset, offset_at] <;> rfl

/-- The second result (`%31`), the updated moving mean, at scene `s`, column `d`. -/
theorem newmean_apply (s : Fin 16) (d : Fin 512) :
    val_main_v31 (F := Ideal) x0 x1 x6 (ix2 s d)
      = x6 (ix2 s d) * Ideal.ofBits .f32 0x3F7D70A4#32
        + (∑ b : Fin 16384, member (x1 (ix2 b 0)) s * x0 (ix2 b d)) * Ideal.ofBits .f32 0x38800000#32
            * Ideal.ofBits .f32 0x3C23D70A#32 := by
  rw [val_main_v31_apply, val_main_v28_apply, val_main_v27_apply, val_main_v30_apply, scenemean_at,
    val_main_v29_apply] <;> rfl

/-- The third result (`%36`), the updated moving variance, at scene `s`, column `d`. -/
theorem newvar_apply (s : Fin 16) (d : Fin 512) :
    val_main_v36 (F := Ideal) x0 x1 x7 (ix2 s d)
      = x7 (ix2 s d) * Ideal.ofBits .f32 0x3F7D70A4#32
        + ((∑ b : Fin 16384, member (x1 (ix2 b 0)) s * (x0 (ix2 b d) * x0 (ix2 b d))) * Ideal.ofBits .f32 0x38800000#32
            - ((∑ b : Fin 16384, member (x1 (ix2 b 0)) s * x0 (ix2 b d)) * Ideal.ofBits .f32 0x38800000#32)
              * ((∑ b : Fin 16384, member (x1 (ix2 b 0)) s * x0 (ix2 b d)) * Ideal.ofBits .f32 0x38800000#32))
          * Ideal.ofBits .f32 0x3C23D70A#32 := by
  rw [val_main_v36_apply, val_main_v33_apply, val_main_v32_apply, val_main_v35_apply, val_main_v26_apply,
    val_main_v24_apply, scenesqsum_at, val_main_v23_apply, val_main_v25_apply, scenemean_at,
    val_main_v34_apply] <;> rfl

end Cert.ReferenceIdeal.RefValue

end
-- ==== Proof.Bridge.lean ====
/-
  The two programs' results are the same functions of the arguments.

  Element by element the reference's output is `(x − μ) · rsqrt(σ² + ε) · scale + offset` with `μ = Σx / 16384` and
  `σ² = Σ(x − μ)² / 16384`, the kernel program's the same expression with `μ = Σx · 2⁻¹⁴` and `σ² = Σx² · 2⁻¹⁴ − μ²`.
  The means agree at every extended real; the variances agree because the batch is finite (the variance identity); everything
  else is the same term on both sides. The two moving averages are the same terms outright.
-/
import proofs.«127924_j88785563943272_1_alg».proof.Proof.KernelValue
import proofs.«127924_j88785563943272_1_alg».proof.Proof.RefValue

set_option maxRecDepth 16384

noncomputable section

open Idealize.ShloMosaic Idealize.ShloMosaic.TcCoe Idealize.SL.Sem Idealize.ShloMosaic.ValueIdx

namespace Cert.Bridge

open Cert.KernelIdeal Cert.KernelIdeal.Gen Cert.KernelIdeal.GenP Cert.KernelIdeal.Value Cert.Moments

variable (m : (ℓ : Loc nD τ sig) → Buf (Elt Ideal) ℓ) (ρ : Dev nD → PrngReg)

/-- The outputs agree, where every entry of the batch is a real number. -/
theorem out_agree (c : Dev nD) (hfin : ∀ (b : Fin 16384) (d : Fin 512), ∃ r : ℝ, X m c (ix2 b d) = (r : EReal)) :
    (Cert.ReferenceIdeal.Read.val_main_v59 (F := Ideal) (X m c) (A2 m c) (A3 m c) (A4 m c) (A5 m c) : FVec Ideal S16x16384x512 .f32)
      = W4 m ρ c (Proc.devRef .tc main_v44) := by
  funext j
  obtain ⟨s, b, d, rfl⟩ : ∃ (s : Fin 16) (b : Fin 16384) (d : Fin 512), j = ix3 s b d := ⟨j 0, j 1, j 2, eq_ix3 j⟩
  refine (Cert.ReferenceIdeal.RefValue.out_apply (X m c) (A2 m c) (A3 m c) (A4 m c) (A5 m c) s b d).trans ?_
  refine Eq.trans ?_ (out_value m ρ c s b d).symm
  unfold Cert.ReferenceIdeal.RefValue.colVar Cert.ReferenceIdeal.RefValue.colMean
  have hv := var_bridge (fun k => X m c (ix2 k d)) (fun k => hfin k d)
  beta_reduce at hv
  rw [hv, mean_bridge]

/-- The updated moving means agree. -/
theorem newmean_agree (c : Dev nD) :
    (Cert.ReferenceIdeal.Read.val_main_v31 (F := Ideal) (X m c) (SID m c) (A6 m c) : FVec Ideal S16x512 .f32)
      = W4 m ρ c (Proc.devRef .tc main_v27) := by
  funext j
  obtain ⟨s, d, rfl⟩ : ∃ (s : Fin 16) (d : Fin 512), j = ix2 s d := ⟨j 0, j 1, eq_ix2 j⟩
  exact (Cert.ReferenceIdeal.RefValue.newmean_apply (X m c) (SID m c) (A6 m c) s d).trans (newmean_value m ρ c s d).symm

/-- The updated moving variances agree. -/
theorem newvar_agree (c : Dev nD) :
    (Cert.ReferenceIdeal.Read.val_main_v36 (F := Ideal) (X m c) (SID m c) (A7 m c) : FVec Ideal S16x512 .f32)
      = W4 m ρ c (Proc.devRef .tc main_v32) := by
  funext j
  obtain ⟨s, d, rfl⟩ : ∃ (s : Fin 16) (d : Fin 512), j = ix2 s d := ⟨j 0, j 1, eq_ix2 j⟩
  exact (Cert.ReferenceIdeal.RefValue.newvar_apply (X m c) (SID m c) (A7 m c) s d).trans (newvar_value m ρ c s d).symm

end Cert.Bridge

end
-- ==== Proof.lean ====
/-
  Per-scene batch normalisation: a two-region kernel program against its array-language reference, equal over the extended reals.

  The kernel program accumulates, tile by tile, the column sums of the batch and of its squares, plain and weighted by each
  scene's membership column (first region); turns them on the host into the batch mean `Σx · 2⁻¹⁴`, the batch variance
  `Σx² · 2⁻¹⁴ − mean²` and the moving averages; and writes `(x − mean) · rsqrt(var + ε) · scale_s + offset_s` for every scene
  `s` (second region), the scene's row picked by a one-hot sum. The reference takes the mean as `Σx / 16384` and the variance as
  `Σ(x − mean)² / 16384`. Dividing by `16384` is multiplying by `2⁻¹⁴` on every extended real; the two variances agree by the
  variance identity, which needs the batch finite, and that is what the precondition says; every other literal is the same
  word on both sides. The idealisation rewrote nothing, so its conjunct is trivial. The reference's frame is its run with the
  results dropped.
-/
import proofs.«127924_j88785563943272_1_alg».proof.Defs
import proofs.«127924_j88785563943272_1_alg».proof.Proof.Gen.Kernel
import proofs.«127924_j88785563943272_1_alg».proof.Proof.Gen.KernelIdeal
import proofs.«127924_j88785563943272_1_alg».proof.Proof.Gen.ReferenceIdeal
import proofs.«127924_j88785563943272_1_alg».proof.Proof.Gen.Pre_finite_inputs
import proofs.«127924_j88785563943272_1_alg».proof.Proof.FrameBits
import proofs.«127924_j88785563943272_1_alg».proof.Proof.FrameIdeal
import proofs.«127924_j88785563943272_1_alg».proof.Proof.RunIdeal
import proofs.«127924_j88785563943272_1_alg».proof.Proof.Gen.ReferenceIdeal.Run
import proofs.«127924_j88785563943272_1_alg».proof.Proof.Gen.ReferenceIdeal.Read
import proofs.«127924_j88785563943272_1_alg».proof.Proof.Finite
import proofs.«127924_j88785563943272_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_kernel : Cert.frame_Kernel := fun m ρ _ => Cert.Kernel.GenP.frame m ρ

theorem frame_kernelIdeal : Cert.frame_KernelIdeal := fun m ρ _ => Cert.KernelIdeal.GenP.frame m ρ

/-- The reference's run, its three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both programs run; the kernel program's three result buffers end at the last boundary's contents, and the reference's
    three result terms are those same functions of arguments that agree. -/
theorem algebraic : Cert.algebraic_KernelIdeal_ReferenceIdeal := by
  intro m ρ m' ρ' hpre hagree
  refine ⟨fun c => Cert.KernelIdeal.GenP.W4 m ρ c (Proc.devRef .tc Cert.KernelIdeal.main_v44),
    fun c => Cert.KernelIdeal.GenP.W4 m ρ c (Proc.devRef .tc Cert.KernelIdeal.main_v27),
    fun c => Cert.KernelIdeal.GenP.W4 m ρ c (Proc.devRef .tc Cert.KernelIdeal.main_v32),
    Cert.KernelIdeal.GenP.run_results m ρ, ?_⟩
  refine (θ_run Cert.ReferenceIdeal.defs _ _).mono (fun r h c => ?_) (Cert.ReferenceIdeal.Value.run (F := Ideal) m' ρ')
  obtain ⟨h59, h31, h36, hargs⟩ := h c
  obtain ⟨g0, g1, g2, g3, g4, g5, g6, g7⟩ := hagree c
  have hfin : ∀ (b : Fin 16384) (d : Fin 512), ∃ r : ℝ, Cert.KernelIdeal.Value.X m c (ix2 b d) = (r : EReal) :=
    fun b d => Cert.Finite.batch_real _ _ _ _ _ _ _ _ (hpre c) (ix2 b d)
  refine ⟨h59.trans ?_, h31.trans ?_, h36.trans ?_, hargs⟩
  · rw [g0, g2, g3, g4, g5]
    exact (Cert.ReferenceIdeal.Read.val_main_v59_eq _ _ _ _ _).trans (Cert.Bridge.out_agree m ρ c hfin)
  · rw [g0, g1, g6]
    exact (Cert.ReferenceIdeal.Read.val_main_v31_eq _ _ _).trans (Cert.Bridge.newmean_agree m ρ c)
  · rw [g0, g1, g7]
    exact (Cert.ReferenceIdeal.Read.val_main_v36_eq _ _ _).trans (Cert.Bridge.newvar_agree m ρ c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
